-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1 : Shape := ⟨1, ![1]⟩
abbrev S128x128 : Shape := ⟨2, ![128, 128]⟩
abbrev S6x128 : Shape := ⟨2, ![6, 128]⟩
abbrev S3x128 : Shape := ⟨2, ![3, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x1600000 : Shape := ⟨2, ![2, 1600000]⟩
abbrev S1600000x2 : Shape := ⟨2, ![1600000, 2]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S6x128 : S_.BroadcastsInDim S6x128 (![] : Fin 0 → Fin S6x128.rank)
  reducesTo_S6x128_S_d0_1 : S6x128.ReducesTo [0, 1] S_
  bcast_S_S3x128 : S_.BroadcastsInDim S3x128 (![] : Fin 0 → Fin S3x128.rank)
  reducesTo_S3x128_S_d0_1 : S3x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1

variable [Facts]

def fn_part4 {F : FTy → Type} [FloatOps F] (main_arg10 : IVec S1600000x2 32) (main_v67 : IVec S_ 1) (main_v69 : IVec S1600000 32) : IVec S_ 1 :=
  let main_c_24 : IVec S_ 32 := constantI S_ 32 0#32
  let main_v70 : IVec S1600000 32 := broadcastInDim S1600000 ![] bcast_S_S1600000 main_c_24
  let main_v71 : IVec S1600000 1 := cmpi .sge main_v69 main_v70
  let main_c_25 : IVec S_ 1 := constantI S_ 1 1#1
  let main_v72 : IVec S_ 1 := (fun x v => Host.reduce IntOp.andi x v reducesTo_S1600000_S_d0 h_S_) main_v71 main_c_25
  let main_v73 : IVec S_ 1 := andi main_v67 main_v72
  let main_v74 : IVec S1600000x1 32 := (extractStridedSlice S1600000x1 ![0, 1] · slices_S1600000x2_S1600000x1_0_1) main_arg10
  let main_v75 : IVec S1600000 32 := shapeCast S1600000 main_v74 shapeCasts_S1600000x1_S1600000
  let main_c_26 : IVec S_ 32 := constantI S_ 32 3#32
  let main_v76 : IVec S1600000 32 := broadcastInDim S1600000 ![] bcast_S_S1600000 main_c_26
  let main_v77 : IVec S1600000 1 := cmpi .slt main_v75 main_v76
  let main_c_27 : IVec S_ 1 := constantI S_ 1 1#1
  let main_v78 : IVec S_ 1 := (fun x v => Host.reduce IntOp.andi x v reducesTo_S1600000_S_d0 h_S_) main_v77 main_c_27
  let main_v79 : IVec S_ 1 := andi main_v73 main_v78
  main_v79

def fn_part3 {F : FTy → Type} [FloatOps F] (main_arg10 : IVec S1600000x2 32) (main_v49 : IVec S_ 1) (main_v51 : IVec S1600000 32) : IVec S_ 1 :=
  let main_c_18 : IVec S_ 32 := constantI S_ 32 100000#32
  let main_v52 : IVec S1600000 32 := broadcastInDim S1600000 ![] bcast_S_S1600000 main_c_18
  let main_v53 : IVec S1600000 1 := cmpi .slt main_v51 main_v52
  let main_c_19 : IVec S_ 1 := constantI S_ 1 1#1
  let main_v54 : IVec S_ 1 := (fun x v => Host.reduce IntOp.andi x v reducesTo_S1600000_S_d0 h_S_) main_v53 main_c_19
  let main_v55 : IVec S_ 1 := andi main_v49 main_v54
  let main_v56 : IVec S1600000x1 32 := (extractStridedSlice S1600000x1 ![0, 0] · slices_S1600000x2_S1600000x1_0_0) main_arg10
  let main_v57 : IVec S1600000 32 := shapeCast S1600000 main_v56 shapeCasts_S1600000x1_S1600000
  let main_c_20 : IVec S_ 32 := constantI S_ 32 0#32
  let main_v58 : IVec S1600000 32 := broadcastInDim S1600000 ![] bcast_S_S1600000 main_c_20
  let main_v59 : IVec S1600000 1 := cmpi .sge main_v57 main_v58
  let main_c_21 : IVec S_ 1 := constantI S_ 1 1#1
  let main_v60 : IVec S_ 1 := (fun x v => Host.reduce IntOp.andi x v reducesTo_S1600000_S_d0 h_S_) main_v59 main_c_21
  let main_v61 : IVec S_ 1 := andi main_v55 main_v60
  let main_v62 : IVec S1600000x1 32 := (extractStridedSlice S1600000x1 ![0, 0] · slices_S1600000x2_S1600000x1_0_0) main_arg10
  let main_v63 : IVec S1600000 32 := shapeCast S1600000 main_v62 shapeCasts_S1600000x1_S1600000
  let main_c_22 : IVec S_ 32 := constantI S_ 32 6#32
  let main_v64 : IVec S1600000 32 := broadcastInDim S1600000 ![] bcast_S_S1600000 main_c_22
  let main_v65 : IVec S1600000 1 := cmpi .slt main_v63 main_v64
  let main_c_23 : IVec S_ 1 := constantI S_ 1 1#1
  let main_v66 : IVec S_ 1 := (fun x v => Host.reduce IntOp.andi x v reducesTo_S1600000_S_d0 h_S_) main_v65 main_c_23
  let main_v67 : IVec S_ 1 := andi main_v61 main_v66
  let main_v68 : IVec S1600000x1 32 := (extractStridedSlice S1600000x1 ![0, 1] · slices_S1600000x2_S1600000x1_0_1) main_arg10
  let main_v69 : IVec S1600000 32 := shapeCast S1600000 main_v68 shapeCasts_S1600000x1_S1600000
  fn_part4 (F := F) main_arg10 main_v67 main_v69

def fn_part2 {F : FTy → Type} [FloatOps F] (main_arg7 : FVec F S128x256 .f32) (main_arg8 : FVec F S128 .f32) (main_arg9 : IVec S2x1600000 32) (main_arg10 : IVec S1600000x2 32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x1600000 32 := (extractStridedSlice S1x1600000 ![0, 0] · slices_S2x1600000_S1x1600000_0_0) main_arg9
  let main_v45 : IVec S1600000 32 := shapeCast S1600000 main_v44 shapeCasts_S1x1600000_S1600000
  let main_c_16 : IVec S_ 32 := constantI S_ 32 4294867296#32
  let main_v46 : IVec S1600000 32 := broadcastInDim S1600000 ![] bcast_S_S1600000 main_c_16
  let main_v47 : IVec S1600000 1 := cmpi .sge main_v45 main_v46
  let main_c_17 : IVec S_ 1 := constantI S_ 1 1#1
  let main_v48 : IVec S_ 1 := (fun x v => Host.reduce IntOp.andi x v reducesTo_S1600000_S_d0 h_S_) main_v47 main_c_17
  let main_v49 : IVec S_ 1 := andi main_v43 main_v48
  let main_v50 : IVec S1x1600000 32 := (extractStridedSlice S1x1600000 ![0, 0] · slices_S2x1600000_S1x1600000_0_0) main_arg9
  let main_v51 : IVec S1600000 32 := shapeCast S1600000 main_v50 shapeCasts_S1x1600000_S1600000
  fn_part3 (F := F) main_arg10 main_v49 main_v51

def fn_part1 {F : FTy → Type} [FloatOps F] (main_arg4 : FVec F S3x128 .f32) (main_arg5 : FVec F S256x128 .f32) (main_arg6 : FVec F S256 .f32) (main_arg7 : FVec F S128x256 .f32) (main_arg8 : FVec F S128 .f32) (main_arg9 : IVec S2x1600000 32) (main_arg10 : IVec S1600000x2 32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S1 .f32) (main_arg2 : FVec F S128x128 .f32) (main_arg3 : FVec F S6x128 .f32) (main_arg4 : FVec F S3x128 .f32) (main_arg5 : FVec F S256x128 .f32) (main_arg6 : FVec F S256 .f32) (main_arg7 : FVec F S128x256 .f32) (main_arg8 : FVec F S128 .f32) (main_arg9 : IVec S2x1600000 32) (main_arg10 : IVec S1600000x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S6x128 .f32 := Host.absf main_arg3
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S1 : Shape := ⟨1, ![1]⟩
abbrev S128x128 : Shape := ⟨2, ![128, 128]⟩
abbrev S6x128 : Shape := ⟨2, ![6, 128]⟩
abbrev S3x128 : Shape := ⟨2, ![3, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x1600000 : Shape := ⟨2, ![2, 1600000]⟩
abbrev S1600000x2 : Shape := ⟨2, ![1600000, 2]⟩
abbrev S1x1 : Shape := ⟨2, ![1, 1]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1600000x1 : Shape := ⟨2, ![1600000, 1]⟩
abbrev S_ : Shape := ⟨0, ![]⟩
abbrev S1703936 : Shape := ⟨1, ![1703936]⟩
abbrev S1703936x1 : Shape := ⟨2, ![1703936, 1]⟩
abbrev S1703936x128 : Shape := ⟨2, ![1703936, 128]⟩
abbrev S1703936x2 : Shape := ⟨2, ![1703936, 2]⟩
abbrev S8192x128 : Shape := ⟨2, ![8192, 128]⟩
abbrev S8192x2 : Shape := ⟨2, ![8192, 2]⟩
abbrev S8192x1 : Shape := ⟨2, ![8192, 1]⟩
abbrev S8192x6 : Shape := ⟨2, ![8192, 6]⟩
abbrev S8192x3 : Shape := ⟨2, ![8192, 3]⟩
abbrev S1x256 : Shape := ⟨2, ![1, 256]⟩
abbrev S1x128 : Shape := ⟨2, ![1, 128]⟩
abbrev S5000x256 : Shape := ⟨2, ![5000, 256]⟩

abbrev nBuf : Space → Nat
  | .hbm => 79
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1, .f32⟩
  | .hbm, ⟨2, _⟩ => ⟨S128x128, .f32⟩
  | .hbm, ⟨3, _⟩ => ⟨S6x128, .f32⟩
  | .hbm, ⟨4, _⟩ => ⟨S3x128, .f32⟩
  | .hbm, ⟨5, _⟩ => ⟨S256x128, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S2x1600000, .i32⟩
  | .hbm, ⟨10, _⟩ => ⟨S1600000x2, .i32⟩
  | .hbm, ⟨11, _⟩ => ⟨S128x128, .f32⟩
  | .hbm, ⟨12, _⟩ => ⟨S1x1, .f32⟩
  | .hbm, ⟨13, _⟩ => ⟨S100000x128, .f32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S1x1600000, .i32⟩
  | .hbm, ⟨19, _⟩ => ⟨S1600000, .i32⟩
  | .hbm, ⟨20, _⟩ => ⟨S1700000, .i32⟩
  | .hbm, ⟨21, _⟩ => ⟨S1600000x1, .i32⟩
  | .hbm, ⟨22, _⟩ => ⟨S1600000, .i32⟩
  | .hbm, ⟨23, _⟩ => ⟨S_, .i32⟩
  | .hbm, ⟨24, _⟩ => ⟨S100000, .i32⟩
  | .hbm, ⟨25, _⟩ => ⟨S1700000, .i32⟩
  | .hbm, ⟨26, _⟩ => ⟨S1600000x1, .i32⟩
  | .hbm, ⟨27, _⟩ => ⟨S1600000, .i32⟩
  | .hbm, ⟨28, _⟩ => ⟨S_, .i32⟩
  | .hbm, ⟨29, _⟩ => ⟨S100000, .i32⟩
  | .hbm, ⟨30, _⟩ => ⟨S1700000, .i32⟩
  | .hbm, ⟨31, _⟩ => ⟨S_, .i32⟩
  | .hbm, ⟨32, _⟩ => ⟨S_, .i32⟩
  | .hbm, ⟨33, _⟩ => ⟨S1703936, .i32⟩
  | .hbm, ⟨34, _⟩ => ⟨S_, .i32⟩
  | .hbm, ⟨35, _⟩ => ⟨S_, .i32⟩
  | .hbm, ⟨36, _⟩ => ⟨S1703936, .i32⟩
  | .hbm, ⟨37, _⟩ => ⟨S_, .i32⟩
  | .hbm, ⟨38, _⟩ => ⟨S_, .i32⟩
  | .hbm, ⟨39, _⟩ => ⟨S1703936, .i32⟩
  | .hbm, ⟨40, _⟩ => ⟨S_, .i32⟩
  | .hbm, ⟨41, _⟩ => ⟨S_, .i32⟩
  | .hbm, ⟨42, _⟩ => ⟨S1703936, .i32⟩
  | .hbm, ⟨43, _⟩ => ⟨S_, .i32⟩
  | .hbm, ⟨44, _⟩ => ⟨S1703936, .i32⟩
  | .hbm, ⟨45, _⟩ => ⟨S1703936, .i1⟩
  | .hbm, ⟨46, _⟩ => ⟨S_, .i32⟩
  | .hbm, ⟨47, _⟩ => ⟨S1703936, .i32⟩
  | .hbm, ⟨48, _⟩ => ⟨S1703936, .i32⟩
  | .hbm, ⟨49, _⟩ => ⟨S1703936, .i32⟩
  | .hbm, ⟨50, _⟩ => ⟨S1703936x1, .i32⟩
  | .hbm, ⟨51, _⟩ => ⟨S1, .i32⟩
  | .hbm, ⟨52, _⟩ => ⟨S_, .i32⟩
  | .hbm, ⟨53, _⟩ => ⟨S1703936x1, .i32⟩
  | .hbm, ⟨54, _⟩ => ⟨S1703936x1, .i1⟩
  | .hbm, ⟨55, _⟩ => ⟨S1x1, .i32⟩
  | .hbm, ⟨56, _⟩ => ⟨S1703936x1, .i32⟩
  | .hbm, ⟨57, _⟩ => ⟨S1703936x1, .i1⟩
  | .hbm, ⟨58, _⟩ => ⟨S1703936x1, .i1⟩
  | .hbm, ⟨59, _⟩ => ⟨S_, .i1⟩
  | .hbm, ⟨60, _⟩ => ⟨S1703936, .i1⟩
  | .hbm, ⟨61, _⟩ => ⟨S1703936x128, .f32⟩
  | .hbm, ⟨62, _⟩ => ⟨S1703936x128, .i1⟩
  | .hbm, ⟨63, _⟩ => ⟨S_, .f32⟩
  | .hbm, ⟨64, _⟩ => ⟨S1703936x128, .f32⟩
  | .hbm, ⟨65, _⟩ => ⟨S1703936x128, .f32⟩
  | .hbm, ⟨66, _⟩ => ⟨S1703936x1, .i32⟩
  | .hbm, ⟨67, _⟩ => ⟨S1703936x1, .i32⟩
  | .hbm, ⟨68, _⟩ => ⟨S1703936x2, .i32⟩
  | .hbm, ⟨69, _⟩ => ⟨S1703936x128, .f32⟩
  | .hbm, ⟨70, _⟩ => ⟨S_, .f32⟩
  | .hbm, ⟨71, _⟩ => ⟨S100000x128, .f32⟩
  | .hbm, ⟨72, _⟩ => ⟨S1703936x1, .i32⟩
  | .hbm, ⟨73, _⟩ => ⟨S100000x128, .f32⟩
  | .hbm, ⟨74, _⟩ => ⟨S128x256, .f32⟩
  | .hbm, ⟨75, _⟩ => ⟨S256x128, .f32⟩
  | .hbm, ⟨76, _⟩ => ⟨S1x256, .f32⟩
  | .hbm, ⟨77, _⟩ => ⟨S1x128, .f32⟩
  | .hbm, ⟨78, _⟩ => ⟨S100000x128, .f32⟩
  | .local _ .vmem, ⟨0, _⟩ => ⟨S1x1, .f32⟩
  | .local _ .vmem, ⟨1, _⟩ => ⟨S5000x128, .f32⟩
  | .local _ .vmem, ⟨2, _⟩ => ⟨S5000x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S8192x128, .f32⟩
  | .local _ .vmem, ⟨7, _⟩ => ⟨S8192x128, .f32⟩
  | .local _ .vmem, ⟨8, _⟩ => ⟨S8192x2, .i32⟩
  | .local _ .vmem, ⟨9, _⟩ => ⟨S8192x2, .i32⟩
  | .local _ .vmem, ⟨10, _⟩ => ⟨S6x128, .f32⟩
  | .local _ .vmem, ⟨11, _⟩ => ⟨S3x128, .f32⟩
  | .local _ .vmem, ⟨12, _⟩ => ⟨S8192x128, .f32⟩
  | .local _ .vmem, ⟨13, _⟩ => ⟨S8192x128, .f32⟩
  | .local _ .vmem, ⟨14, _⟩ => ⟨S5000x128, .f32⟩
  | .local _ .vmem, ⟨15, _⟩ => ⟨S5000x128, .f32⟩
  | .local _ .vmem, ⟨16, _⟩ => ⟨S128x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_call0_v0 : Ref sig .tc := ⟨.hbm, 32, rfl⟩
abbrev main_v18 : Ref sig .tc := ⟨.hbm, 33, rfl⟩
abbrev main_c_2 : Ref sig .tc := ⟨.hbm, 34, rfl⟩
abbrev main_call1_v0 : Ref sig .tc := ⟨.hbm, 35, rfl⟩
abbrev main_v19 : Ref sig .tc := ⟨.hbm, 36, rfl⟩
abbrev main_c_3 : Ref sig .tc := ⟨.hbm, 37, rfl⟩
abbrev main_call2_v0 : Ref sig .tc := ⟨.hbm, 38, rfl⟩
abbrev main_v20 : Ref sig .tc := ⟨.hbm, 39, rfl⟩
abbrev main_c_4 : Ref sig .tc := ⟨.hbm, 40, rfl⟩
abbrev main_call3_v0 : Ref sig .tc := ⟨.hbm, 41, rfl⟩
abbrev main_v21 : Ref sig .tc := ⟨.hbm, 42, rfl⟩
abbrev main_call4_c : Ref sig .tc := ⟨.hbm, 43, rfl⟩
abbrev main_call4_v0 : Ref sig .tc := ⟨.hbm, 44, rfl⟩
abbrev main_call4_v1 : Ref sig .tc := ⟨.hbm, 45, rfl⟩
abbrev main_call4_c_0 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_c_1 : Ref sig .tc := ⟨.hbm, 51, rfl⟩
abbrev main_call4_c_2 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_3 : Ref sig .tc := ⟨.hbm, 59, rfl⟩
abbrev main_call4_v12 : Ref sig .tc := ⟨.hbm, 60, rfl⟩
abbrev main_call4_v13 : Ref sig .tc := ⟨.hbm, 61, rfl⟩
abbrev main_call4_v14 : Ref sig .tc := ⟨.hbm, 62, rfl⟩
abbrev main_call4_cst : Ref sig .tc := ⟨.hbm, 63, rfl⟩
abbrev main_call4_v15 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x2 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128_S128x128_1_0 : S128x128.Transposes [1, 0] S128x128
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  slices_S1600000x2_S1600000x1_0_0 : S1600000x2.Slices ![0, 0] S1600000x1
  shapeCasts_S1600000x1_S1600000 : S1600000x1.ShapeCasts S1600000
  bcast_S_S100000 : S_.BroadcastsInDim S100000 (![] : Fin 0 → Fin S100000.rank)
  slices_S1600000x2_S1600000x1_0_1 : S1600000x2.Slices ![0, 1] S1600000x1
  pads_S1700000_S1703936_039360 : S1700000.Pads (![0] : Fin 1 → Nat) ![3936] ![0] S1703936
  h_S_ : 0 < S_.numel
  bcast_S_S1703936 : S_.BroadcastsInDim S1703936 (![] : Fin 0 → Fin S1703936.rank)
  bcast_S1703936_S1703936x1_0 : S1703936.BroadcastsInDim S1703936x1 (![0] : Fin 1 → Fin S1703936x1.rank)
  bcast_S_S1703936x1 : S_.BroadcastsInDim S1703936x1 (![] : Fin 0 → Fin S1703936x1.rank)
  bcast_S1_S1x1_1 : S1.BroadcastsInDim S1x1 (![1] : Fin 1 → Fin S1x1.rank)
  bcast_S1x1_S1703936x1_0_1 : S1x1.BroadcastsInDim S1703936x1 (![0, 1] : Fin 2 → Fin S1703936x1.rank)
  reducesTo_S1703936x1_S1703936_d1 : S1703936x1.ReducesTo [1] S1703936
  bcast_S1703936_S1703936x128_0 : S1703936.BroadcastsInDim S1703936x128 (![0] : Fin 1 → Fin S1703936x128.rank)
  bcast_S_S1703936x128 : S_.BroadcastsInDim S1703936x128 (![] : Fin 0 → Fin S1703936x128.rank)
  concatenates_S1703936x1_S1703936x1_S1703936x2_d1 : Shape.Concatenates [S1703936x1, S1703936x1] S1703936x2 1
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  slices_S8192x2_o0_0_S8192x1 : S8192x2.Slices ![0, 0] S8192x1
  slices_S8192x2_o0_1_S8192x1 : S8192x2.Slices ![0, 1] S8192x1
  iota_S8192x6_d1_w32 : S8192x6.Iotas .tc 32 [1]
  iota_S8192x3_d1_w32 : S8192x3.Iotas .tc 32 [1]
  broadcasts_S8192x1_S8192x6 : S8192x1.Broadcasts S8192x6
  natLt_1_32 : 1 < 32
  broadcasts_S8192x1_S8192x3 : S8192x1.Broadcasts S8192x3
  inb_S6x128_S6x128_0_0 : ∀ a, (![0, 0] : Fin 2 → Nat) a + S6x128.size a ≤ S6x128.size a
  h_S6x128 : 0 < S6x128.numel
  inb_S3x128_S3x128_0_0 : ∀ a, (![0, 0] : Fin 2 → Nat) a + S3x128.size a ≤ S3x128.size a
  h_S3x128 : 0 < S3x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bcast_S_S100000x128 : S_.BroadcastsInDim S100000x128 (![] : Fin 0 → Fin S100000x128.rank)
  transposes_S256x128_S128x256_1_0 : S256x128.Transposes [1, 0] S128x256
  transposes_S128x256_S256x128_1_0 : S128x256.Transposes [1, 0] S256x128
  shapeCasts_S256_S1x256 : S256.ShapeCasts S1x256
  shapeCasts_S128_S1x128 : S128.ShapeCasts S1x128
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1703936x1_S1703936x128_1_0_n_n_0_1_1128_wf : GatherDims.WF S100000x128 S1703936x1 S1703936x128 [1] [0] [] [0] [] 1 ![1, 128]
  dot_S8192x6_S6x128_S8192x128_1_0_0_1_n_n_wf : DotDims.WF S8192x6 S6x128 S8192x128 [1] [0] [0] [1] [] []
  dot_S8192x3_S3x128_S8192x128_1_0_0_1_n_n_wf : DotDims.WF S8192x3 S3x128 S8192x128 [1] [0] [0] [1] [] []
  scatter_S100000x128_S1703936x1_S1703936x128_1_0_0_1_wf : ScatterDims.WF S100000x128 S1703936x1 S1703936x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x2.size a ≤ S1703936x2.size a
  hwx1_1 : ∀ i : grid1.Coords, EltTy.bits .i32 = 32 ∨ (Rect.block (s := S1703936x2) S8192x2.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x128.size a ≤ S6x128.size a
  hwx1_2 : ∀ i : grid1.Coords, EltTy.bits .f32 = 32 ∨ (Rect.block (s := S6x128) S6x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128.size a ≤ S3x128.size a
  hwx1_3 : ∀ i : grid1.Coords, EltTy.bits .f32 = 32 ∨ (Rect.block (s := S3x128) S3x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x128.size a ≤ S1703936x128.size a
  hwx1_4 : ∀ i : grid1.Coords, EltTy.bits .f32 = 32 ∨ (Rect.block (s := S1703936x128) S8192x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def dot_S8192x6_S6x128_S8192x128_1_0_0_1_n_n : DotDims S8192x6 S6x128 S8192x128 where
  lhsContracting := [1]
  rhsContracting := [0]
  lhsNonContracting := [0]
  rhsNonContracting := [1]
  lhsBatch := []
  rhsBatch := []
  wf := dot_S8192x6_S6x128_S8192x128_1_0_0_1_n_n_wf
def dot_S8192x3_S3x128_S8192x128_1_0_0_1_n_n : DotDims S8192x3 S3x128 S8192x128 where
  lhsContracting := [1]
  rhsContracting := [0]
  lhsNonContracting := [0]
  rhsNonContracting := [1]
  lhsBatch := []
  rhsBatch := []
  wf := dot_S8192x3_S3x128_S8192x128_1_0_0_1_n_n_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v1) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S8192x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S6x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S8192x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1 : Shape := ⟨1, ![1]⟩
abbrev S128x128 : Shape := ⟨2, ![128, 128]⟩
abbrev S6x128 : Shape := ⟨2, ![6, 128]⟩
abbrev S3x128 : Shape := ⟨2, ![3, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x1600000 : Shape := ⟨2, ![2, 1600000]⟩
abbrev S1600000x2 : Shape := ⟨2, ![1600000, 2]⟩
abbrev S_ : Shape := ⟨0, ![]⟩
abbrev S1x1 : Shape := ⟨2, ![1, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1600000x1 : Shape := ⟨2, ![1600000, 1]⟩
abbrev S1700000x1 : Shape := ⟨2, ![1700000, 1]⟩
abbrev S1700000x128 : Shape := ⟨2, ![1700000, 128]⟩
abbrev S100000x256 : Shape := ⟨2, ![100000, 256]⟩
abbrev S1x256 : Shape := ⟨2, ![1, 256]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1, .f32⟩
  | .hbm, ⟨2, _⟩ => ⟨S128x128, .f32⟩
  | .hbm, ⟨3, _⟩ => ⟨S6x128, .f32⟩
  | .hbm, ⟨4, _⟩ => ⟨S3x128, .f32⟩
  | .hbm, ⟨5, _⟩ => ⟨S256x128, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S2x1600000, .i32⟩
  | .hbm, ⟨10, _⟩ => ⟨S1600000x2, .i32⟩
  | .hbm, ⟨11, _⟩ => ⟨S_, .f32⟩
  | .hbm, ⟨12, _⟩ => ⟨S100000x128, .f32⟩
  | .hbm, ⟨13, _⟩ => ⟨S100000x128, .i1⟩
  | .hbm, ⟨14, _⟩ => ⟨S1x1, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S100000, .i32⟩
  | .hbm, ⟨21, _⟩ => ⟨S1x1600000, .i32⟩
  | .hbm, ⟨22, _⟩ => ⟨S1600000, .i32⟩
  | .hbm, ⟨23, _⟩ => ⟨S1700000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S1600000x1, .i32⟩
  | .hbm, ⟨28, _⟩ => ⟨S1600000, .i32⟩
  | .hbm, ⟨29, _⟩ => ⟨S_, .i32⟩
  | .hbm, ⟨30, _⟩ => ⟨S100000, .i32⟩
  | .hbm, ⟨31, _⟩ => ⟨S1700000, .i32⟩
  | .hbm, ⟨32, _⟩ => ⟨S1600000x1, .i32⟩
  | .hbm, ⟨33, _⟩ => ⟨S1600000, .i32⟩
  | .hbm, ⟨34, _⟩ => ⟨S_, .i32⟩
  | .hbm, ⟨35, _⟩ => ⟨S100000, .i32⟩
  | .hbm, ⟨36, _⟩ => ⟨S1700000, .i32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S128x256, .f32⟩
  | .hbm, ⟨71, _⟩ => ⟨S100000x256, .f32⟩
  | .hbm, ⟨72, _⟩ => ⟨S1x256, .f32⟩
  | .hbm, ⟨73, _⟩ => ⟨S100000x256, .f32⟩
  | .hbm, ⟨74, _⟩ => ⟨S100000x256, .f32⟩
  | .hbm, ⟨75, _⟩ => ⟨S_, .f32⟩
  | .hbm, ⟨76, _⟩ => ⟨S100000x256, .f32⟩
  | .hbm, ⟨77, _⟩ => ⟨S100000x256, .f32⟩
  | .hbm, ⟨78, _⟩ => ⟨S256x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call1_cst : Ref sig .tc := ⟨.hbm, 75, rfl⟩
abbrev main_call1_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  slices_S1600000x2_S1600000x1_0_0 : S1600000x2.Slices ![0, 0] S1600000x1
  shapeCasts_S1600000x1_S1600000 : S1600000x1.ShapeCasts S1600000
  bcast_S_S100000 : S_.BroadcastsInDim S100000 (![] : Fin 0 → Fin S100000.rank)
  slices_S1600000x2_S1600000x1_0_1 : S1600000x2.Slices ![0, 1] S1600000x1
  bcast_S_S1700000 : S_.BroadcastsInDim S1700000 (![] : Fin 0 → Fin S1700000.rank)
  bcast_S1700000_S1700000x1_0 : S1700000.BroadcastsInDim S1700000x1 (![0] : Fin 1 → Fin S1700000x1.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S6x128_S1700000x1_S1700000x128_1_0_n_n_0_1_1128_wf : GatherDims.WF S6x128 S1700000x1 S1700000x128 [1] [0] [] [0] [] 1 ![1, 128]
  gather_S3x128_S1700000x1_S1700000x128_1_0_n_n_0_1_1128_wf : GatherDims.WF S3x128 S1700000x1 S1700000x128 [1] [0] [] [0] [] 1 ![1, 128]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S6x128_S1700000x1_S1700000x128_1_0_n_n_0_1_1128 : GatherDims S6x128 S1700000x1 S1700000x128 where
  offsetDims := [1]
  collapsedSliceDims := [0]
  operandBatchingDims := []
  startIndicesBatchingDims := []
  startIndexMap := [0]
  indexVectorDim := 1
  sliceSizes := ![1, 128]
  wf := gather_S6x128_S1700000x1_S1700000x128_1_0_n_n_0_1_1128_wf
def gather_S3x128_S1700000x1_S1700000x128_1_0_n_n_0_1_1128 : GatherDims S3x128 S1700000x1 S1700000x128 where
  offsetDims := [1]
  collapsedSliceDims := [0]
  operandBatchingDims := []
  startIndicesBatchingDims := []
  startIndexMap := [0]
  indexVectorDim := 1
  sliceSizes := ![1, 128]
  wf := gather_S3x128_S1700000x1_S1700000x128_1_0_n_n_0_1_1128_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Fold.lean ====
/-
  The kernel program's buffers at its three regions' entries, in terms of the argument arrays.

  Between its three grid kernels the program runs plain host operations: before the first, a transpose of W_lin and a
  recast of the slope; between the first and the second, the edge list with its self-loops and its padding, the lookup of
  the projected rows at the padded sources, and the two attribute columns laid side by side; between the second and the
  third, the scatter-add of the messages at the padded targets, two transposes and two recasts. The contents of the
  buffers at each boundary are a fold of these operations over the launch memory. Here each buffer a region or the
  scatter-add reads is walked back through that fold: to the argument arrays, to the first region's output array, or to
  the second region's output array.
-/
import proofs.«417791_j37349035606505_1_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## What a stretch of host operations leaves alone

Each stretch writes a fixed list of buffers, one per operation; a buffer outside that list holds after the stretch what it
held before it. One lemma per stretch, so that a walk back through the fold names the stretch and decides a list membership. -/

theorem keep0 (V : Valuation τ sig (Elt Ideal)) (r : Ref sig .tc)
    (hr : r ∉ [main_v0, main_v1]) :
    StableHlo.after hostOps0 V (Proc.devRef .tc r) = V (Proc.devRef .tc r) :=
  StableHlo.after_of_writes_sub _ V (by
    simp only [hostOps0, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1 (V : Valuation τ sig (Elt Ideal)) (r : Ref sig .tc)
    (hr : r ∉ [main_v3, main_v4, main_v5, main_v6, main_v7, main_v8, main_v9, main_v10, main_v11, main_c, main_v12, main_v13, main_v14, main_v15, main_c_0, main_v16, main_v17, main_c_1]) :
    StableHlo.after hostOps1 V (Proc.devRef .tc r) = V (Proc.devRef .tc r) :=
  StableHlo.after_of_writes_sub _ V (by
    simp only [hostOps1, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep2 (V : Valuation τ sig (Elt Ideal)) (r : Ref sig .tc)
    (hr : r ∉ [main_cst, main_v27, main_v28, main_v29, main_v30, main_v31, main_v32, main_v33]) :
    StableHlo.after hostOps2 V (Proc.devRef .tc r) = V (Proc.devRef .tc r) :=
  StableHlo.after_of_writes_sub _ V (by
    simp only [hostOps2, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_1 (V : Valuation τ sig (Elt Ideal)) (r : Ref sig .tc)
    (hr : r ∉ [main_call0_v0, main_v18]) :
    StableHlo.after hostOps1_1 V (Proc.devRef .tc r) = V (Proc.devRef .tc r) :=
  StableHlo.after_of_writes_sub _ V (by
    simp only [hostOps1_1, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_2 (V : Valuation τ sig (Elt Ideal)) (r : Ref sig .tc)
    (hr : r ∉ [main_c_2]) :
    StableHlo.after hostOps1_2 V (Proc.devRef .tc r) = V (Proc.devRef .tc r) :=
  StableHlo.after_of_writes_sub _ V (by
    simp only [hostOps1_2, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_3 (V : Valuation τ sig (Elt Ideal)) (r : Ref sig .tc)
    (hr : r ∉ [main_call1_v0, main_v19]) :
    StableHlo.after hostOps1_3 V (Proc.devRef .tc r) = V (Proc.devRef .tc r) :=
  StableHlo.after_of_writes_sub _ V (by
    simp only [hostOps1_3, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_4 (V : Valuation τ sig (Elt Ideal)) (r : Ref sig .tc)
    (hr : r ∉ [main_c_3]) :
    StableHlo.after hostOps1_4 V (Proc.devRef .tc r) = V (Proc.devRef .tc r) :=
  StableHlo.after_of_writes_sub _ V (by
    simp only [hostOps1_4, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_5 (V : Valuation τ sig (Elt Ideal)) (r : Ref sig .tc)
    (hr : r ∉ [main_call2_v0, main_v20]) :
    StableHlo.after hostOps1_5 V (Proc.devRef .tc r) = V (Proc.devRef .tc r) :=
  StableHlo.after_of_writes_sub _ V (by
    simp only [hostOps1_5, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_6 (V : Valuation τ sig (Elt Ideal)) (r : Ref sig .tc)
    (hr : r ∉ [main_c_4]) :
    StableHlo.after hostOps1_6 V (Proc.devRef .tc r) = V (Proc.devRef .tc r) :=
  StableHlo.after_of_writes_sub _ V (by
    simp only [hostOps1_6, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_7 (V : Valuation τ sig (Elt Ideal)) (r : Ref sig .tc)
    (hr : r ∉ [main_call3_v0, main_v21]) :
    StableHlo.after hostOps1_7 V (Proc.devRef .tc r) = V (Proc.devRef .tc r) :=
  StableHlo.after_of_writes_sub _ V (by
    simp only [hostOps1_7, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_8 (V : Valuation τ sig (Elt Ideal)) (r : Ref sig .tc)
    (hr : r ∉ [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v22]) :
    StableHlo.after hostOps1_8 V (Proc.devRef .tc r) = V (Proc.devRef .tc r) :=
  StableHlo.after_of_writes_sub _ V (by
    simp only [hostOps1_8, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

theorem keep1_9 (V : Valuation τ sig (Elt Ideal)) (r : Ref sig .tc)
    (hr : r ∉ [main_v23, main_v24, main_v25]) :
    StableHlo.after hostOps1_9 V (Proc.devRef .tc r) = V (Proc.devRef .tc r) :=
  StableHlo.after_of_writes_sub _ V (by
    simp only [hostOps1_9, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hr

/-! ## Region 0's entry: after the two launch-side operations (a transpose and a reshape) -/

/-- Neither operation writes the first argument's buffer. -/
theorem V1_arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The weight matrix, transposed. -/
theorem V1_v0 (c : Dev nD) : V1 m ρ c main_v0
    = transpose S128x128 [1, 0] (m ((c : Thread nD τ).loc main_arg2)) transposes_S128x128_S128x128_1_0 := by
  show StableHlo.after hostOps0 (W0 m ρ c) (Proc.devRef .tc main_v0) = _
  after_results

/-- The one-entry slope vector, recast as a [1, 1] array. -/
theorem V1_v1 (c : Dev nD) : V1 m ρ c main_v1
    = fun i => (rfl : main_arg1.ty.elt = main_v1.ty.elt) ▸ shapeCast main_v1.ty.shape (m ((c : Thread nD τ).loc main_arg1)) shapeCasts_S1_S1x1 i := by
  show StableHlo.after hostOps0 (W0 m ρ c) (Proc.devRef .tc main_v1) = _
  after_results

/-! ## The arguments where a later stretch reads them

No operation and no region writes an argument's buffer, so at every boundary it holds its launch contents. Between two
boundaries the contents agree, so the equation at the last boundary gives the one at any earlier boundary. -/

theorem W13_arg5 (c : Dev nD) : W13 m ρ c (Proc.devRef .tc main_arg5) = m ((c : Thread nD τ).loc main_arg5) :=
  calc W13 m ρ c (Proc.devRef .tc main_arg5)
    _ = W14 m ρ c (Proc.devRef .tc main_arg5) := (keep2 _ main_arg5 (by decide)).symm
    _ = W15 m ρ c (Proc.devRef .tc main_arg5) := (W15_of_ne m ρ c main_arg5 (by decide)).symm
    _ = m ((c : Thread nD τ).loc main_arg5) := W15_main_arg5 m ρ c

theorem W13_arg6 (c : Dev nD) : W13 m ρ c (Proc.devRef .tc main_arg6) = m ((c : Thread nD τ).loc main_arg6) :=
  calc W13 m ρ c (Proc.devRef .tc main_arg6)
    _ = W14 m ρ c (Proc.devRef .tc main_arg6) := (keep2 _ main_arg6 (by decide)).symm
    _ = W15 m ρ c (Proc.devRef .tc main_arg6) := (W15_of_ne m ρ c main_arg6 (by decide)).symm
    _ = m ((c : Thread nD τ).loc main_arg6) := W15_main_arg6 m ρ c

theorem W13_arg7 (c : Dev nD) : W13 m ρ c (Proc.devRef .tc main_arg7) = m ((c : Thread nD τ).loc main_arg7) :=
  calc W13 m ρ c (Proc.devRef .tc main_arg7)
    _ = W14 m ρ c (Proc.devRef .tc main_arg7) := (keep2 _ main_arg7 (by decide)).symm
    _ = W15 m ρ c (Proc.devRef .tc main_arg7) := (W15_of_ne m ρ c main_arg7 (by decide)).symm
    _ = m ((c : Thread nD τ).loc main_arg7) := W15_main_arg7 m ρ c

theorem W13_arg8 (c : Dev nD) : W13 m ρ c (Proc.devRef .tc main_arg8) = m ((c : Thread nD τ).loc main_arg8) :=
  calc W13 m ρ c (Proc.devRef .tc main_arg8)
    _ = W14 m ρ c (Proc.devRef .tc main_arg8) := (keep2 _ main_arg8 (by decide)).symm
    _ = W15 m ρ c (Proc.devRef .tc main_arg8) := (W15_of_ne m ρ c main_arg8 (by decide)).symm
    _ = m ((c : Thread nD τ).loc main_arg8) := W15_main_arg8 m ρ c

theorem W13_arg9 (c : Dev nD) : W13 m ρ c (Proc.devRef .tc main_arg9) = m ((c : Thread nD τ).loc main_arg9) :=
  calc W13 m ρ c (Proc.devRef .tc main_arg9)
    _ = W14 m ρ c (Proc.devRef .tc main_arg9) := (keep2 _ main_arg9 (by decide)).symm
    _ = W15 m ρ c (Proc.devRef .tc main_arg9) := (W15_of_ne m ρ c main_arg9 (by decide)).symm
    _ = m ((c : Thread nD τ).loc main_arg9) := W15_main_arg9 m ρ c

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := keep0 _ main_arg9 (by decide)
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := keep0 _ main_arg10 (by decide)
    _ = m ((c : Thread nD τ).loc main_arg10) := rfl

/-! ## Region 2's entry: the four small operands (two transposes, two reshapes of launch arguments) -/

/-- The first layer's weights, transposed to [128, 256]. -/
theorem V14_v30 (c : Dev nD) : V14 m ρ c main_v30
    = transpose S128x256 [1, 0] (m ((c : Thread nD τ).loc main_arg5)) transposes_S256x128_S128x256_1_0 := by
  have e : V14 m ρ c main_v30
      = transpose S128x256 [1, 0] (W13 m ρ c (Proc.devRef .tc main_arg5)) transposes_S256x128_S128x256_1_0 := by
    show StableHlo.after hostOps2 (W13 m ρ c) (Proc.devRef .tc main_v30) = _
    after_results
  rw [e, W13_arg5]

/-- The second layer's weights, transposed to [256, 128]. -/
theorem V14_v31 (c : Dev nD) : V14 m ρ c main_v31
    = transpose S256x128 [1, 0] (m ((c : Thread nD τ).loc main_arg7)) transposes_S128x256_S256x128_1_0 := by
  have e : V14 m ρ c main_v31
      = transpose S256x128 [1, 0] (W13 m ρ c (Proc.devRef .tc main_arg7)) transposes_S128x256_S256x128_1_0 := by
    show StableHlo.after hostOps2 (W13 m ρ c) (Proc.devRef .tc main_v31) = _
    after_results
  rw [e, W13_arg7]

/-- The first bias, recast as a [1, 256] row. -/
theorem V14_v32 (c : Dev nD) : V14 m ρ c main_v32
    = fun i => (rfl : main_arg6.ty.elt = main_v32.ty.elt) ▸ shapeCast main_v32.ty.shape (m ((c : Thread nD τ).loc main_arg6)) shapeCasts_S256_S1x256 i := by
  have e : V14 m ρ c main_v32
      = fun i => (rfl : main_arg6.ty.elt = main_v32.ty.elt) ▸ shapeCast main_v32.ty.shape (W13 m ρ c (Proc.devRef .tc main_arg6)) shapeCasts_S256_S1x256 i := by
    show StableHlo.after hostOps2 (W13 m ρ c) (Proc.devRef .tc main_v32) = _
    after_results
  rw [e, W13_arg6]

/-- The second bias, recast as a [1, 128] row. -/
theorem V14_v33 (c : Dev nD) : V14 m ρ c main_v33
    = fun i => (rfl : main_arg8.ty.elt = main_v33.ty.elt) ▸ shapeCast main_v33.ty.shape (m ((c : Thread nD τ).loc main_arg8)) shapeCasts_S128_S1x128 i := by
  have e : V14 m ρ c main_v33
      = fun i => (rfl : main_arg8.ty.elt = main_v33.ty.elt) ▸ shapeCast main_v33.ty.shape (W13 m ρ c (Proc.devRef .tc main_arg8)) shapeCasts_S128_S1x128 i := by
    show StableHlo.after hostOps2 (W13 m ρ c) (Proc.devRef .tc main_v33) = _
    after_results
  rw [e, W13_arg8]

/-! ## Region 1's entry: its two argument arrays

Region 1 reads them through input windows and leaves them as it found them. -/

theorem V12_arg3 (c : Dev nD) : V12 m ρ c main_arg3 = m ((c : Thread nD τ).loc main_arg3) :=
  calc V12 m ρ c main_arg3
    _ = W13 m ρ c (Proc.devRef .tc main_arg3) :=
        ((W13_arr m ρ c 2).trans (((dat1 (V12 m ρ) c).arrAt_in 2 rfl _).trans (A_eq1 (V12 m ρ) c 2))).symm
    _ = W14 m ρ c (Proc.devRef .tc main_arg3) := (keep2 _ main_arg3 (by decide)).symm
    _ = W15 m ρ c (Proc.devRef .tc main_arg3) := (W15_of_ne m ρ c main_arg3 (by decide)).symm
    _ = m ((c : Thread nD τ).loc main_arg3) := W15_main_arg3 m ρ c

theorem V12_arg4 (c : Dev nD) : V12 m ρ c main_arg4 = m ((c : Thread nD τ).loc main_arg4) :=
  calc V12 m ρ c main_arg4
    _ = W13 m ρ c (Proc.devRef .tc main_arg4) :=
        ((W13_arr m ρ c 3).trans (((dat1 (V12 m ρ) c).arrAt_in 3 rfl _).trans (A_eq1 (V12 m ρ) c 3))).symm
    _ = W14 m ρ c (Proc.devRef .tc main_arg4) := (keep2 _ main_arg4 (by decide)).symm
    _ = W15 m ρ c (Proc.devRef .tc main_arg4) := (W15_of_ne m ρ c main_arg4 (by decide)).symm
    _ = m ((c : Thread nD τ).loc main_arg4) := W15_main_arg4 m ρ c

/-! ## The index arrays the host builds from the edge list

The edge list `e` is a [2, 1600000] array of words (row 0 the sources, row 1 the targets) and the edge attributes `a` a
[1600000, 2] array. Each of the four index vectors is one row of `e` (one column of `a`) laid out as a vector of 1600000
words, followed by 100000 entries for the loop edges (the node's own number for the two rows of `e`; the constants 4 and 0
for the two columns of `a`), and then padded by 3936 entries of a fill word to length 1703936. -/

/-- Row `0` of the edge list, then the node numbers 0 … 99999. -/
def srcCat (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
      ⟨S100000, iotaInDim S100000 32 0⟩]
    concatenates_S1600000_S100000_S1700000_d0

/-- Row `1` of the edge list, then the node numbers 0 … 99999. -/
def dstCat (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
      ⟨S100000, iotaInDim S100000 32 0⟩]
    concatenates_S1600000_S100000_S1700000_d0

/-- Column `0` of the edge attributes, then 100000 copies of the word 4. -/
def e0Cat (a : IVec S1600000x2 32) : IVec S1700000 32 :=
  concatenate S1700000 0
    [⟨S1600000, shapeCast S1600000 (extractStridedSlice S1600000x1 ![0, 0] a slices_S1600000x2_S1600000x1_0_0) shapeCasts_S1600000x1_S1600000⟩,
      ⟨S100000, broadcastInDim S100000 ![] bcast_S_S100000 (constantI S_ 32 4#32)⟩]
    concatenates_S1600000_S100000_S1700000_d0

/-- Column `1` of the edge attributes, then 100000 copies of the word 0. -/
def e1Cat (a : IVec S1600000x2 32) : IVec S1700000 32 :=
  concatenate S1700000 0
    [⟨S1600000, shapeCast S1600000 (extractStridedSlice S1600000x1 ![0, 1] a slices_S1600000x2_S1600000x1_0_1) shapeCasts_S1600000x1_S1600000⟩,
      ⟨S100000, broadcastInDim S100000 ![] bcast_S_S100000 (constantI S_ 32 0#32)⟩]
    concatenates_S1600000_S100000_S1700000_d0

/-- A vector of 1700000 words padded at the end by 3936 copies of the one entry of `v`. -/
def padTail (x : IVec S1700000 32) (v : IVec S_ 32) : IVec S1703936 32 :=
  pad S1703936 ![0] ![3936] ![0] x v pads_S1700000_S1703936_039360 h_S_

/-- The sources, padded with node 0. -/
def srcPad (e : IVec S2x1600000 32) : IVec S1703936 32 := padTail (srcCat e) (constantI S_ 32 0#32)
/-- The targets, padded with the word 100000 (one past the last node). -/
def dstPad (e : IVec S2x1600000 32) : IVec S1703936 32 := padTail (dstCat e) (constantI S_ 32 100000#32)
/-- The first attribute column, padded with 0. -/
def e0Pad (a : IVec S1600000x2 32) : IVec S1703936 32 := padTail (e0Cat a) (constantI S_ 32 0#32)
/-- The second attribute column, padded with 0. -/
def e1Pad (a : IVec S1600000x2 32) : IVec S1703936 32 := padTail (e1Cat a) (constantI S_ 32 0#32)

/-! ## Each stretch's results, from arbitrary contents before it

Stated over any contents `U` of the buffers before the stretch: a stretch's results depend on nothing else. -/

theorem open1_v6 (U : Valuation τ sig (Elt Ideal)) : StableHlo.after hostOps1 U (Proc.devRef .tc main_v6) = srcCat (U (Proc.devRef .tc main_arg9)) := by
  after_results
  first | done | rfl
theorem open1_v9 (U : Valuation τ sig (Elt Ideal)) : StableHlo.after hostOps1 U (Proc.devRef .tc main_v9) = dstCat (U (Proc.devRef .tc main_arg9)) := by
  after_results
  first | done | rfl
theorem open1_v13 (U : Valuation τ sig (Elt Ideal)) : StableHlo.after hostOps1 U (Proc.devRef .tc main_v13) = e0Cat (U (Proc.devRef .tc main_arg10)) := by
  after_results
  first | done | rfl
theorem open1_v17 (U : Valuation τ sig (Elt Ideal)) : StableHlo.after hostOps1 U (Proc.devRef .tc main_v17) = e1Cat (U (Proc.devRef .tc main_arg10)) := by
  after_results
  first | done | rfl
theorem open1_c1 (U : Valuation τ sig (Elt Ideal)) : StableHlo.after hostOps1 U (Proc.devRef .tc main_c_1) = constantI S_ 32 0#32 := by
  after_results
  first | done | rfl
theorem open1_2_c2 (U : Valuation τ sig (Elt Ideal)) : StableHlo.after hostOps1_2 U (Proc.devRef .tc main_c_2) = constantI S_ 32 100000#32 := by
  after_results
  first | done | rfl
theorem open1_4_c3 (U : Valuation τ sig (Elt Ideal)) : StableHlo.after hostOps1_4 U (Proc.devRef .tc main_c_3) = constantI S_ 32 0#32 := by
  after_results
  first | done | rfl
theorem open1_6_c4 (U : Valuation τ sig (Elt Ideal)) : StableHlo.after hostOps1_6 U (Proc.devRef .tc main_c_4) = constantI S_ 32 0#32 := by
  after_results
  first | done | rfl

/-- A pad stretch: the fill word is copied into the callee's own buffer, then the pad is taken. -/
theorem open1_1_v18 (U : Valuation τ sig (Elt Ideal)) : StableHlo.after hostOps1_1 U (Proc.devRef .tc main_v18) = padTail (U (Proc.devRef .tc main_v6)) (U (Proc.devRef .tc main_c_1)) := by
  after_results
  first | done | rfl

/-- A pad stretch: the fill word is copied into the callee's own buffer, then the pad is taken. -/
theorem open1_3_v19 (U : Valuation τ sig (Elt Ideal)) : StableHlo.after hostOps1_3 U (Proc.devRef .tc main_v19) = padTail (U (Proc.devRef .tc main_v9)) (U (Proc.devRef .tc main_c_2)) := by
  after_results
  first | done | rfl

/-- A pad stretch: the fill word is copied into the callee's own buffer, then the pad is taken. -/
theorem open1_5_v20 (U : Valuation τ sig (Elt Ideal)) : StableHlo.after hostOps1_5 U (Proc.devRef .tc main_v20) = padTail (U (Proc.devRef .tc main_v13)) (U (Proc.devRef .tc main_c_3)) := by
  after_results
  first | done | rfl

/-- A pad stretch: the fill word is copied into the callee's own buffer, then the pad is taken. -/
theorem open1_7_v21 (U : Valuation τ sig (Elt Ideal)) : StableHlo.after hostOps1_7 U (Proc.devRef .tc main_v21) = padTail (U (Proc.devRef .tc main_v17)) (U (Proc.devRef .tc main_c_4)) := by
  after_results
  first | done | rfl

theorem open1_9_v25 (U : Valuation τ sig (Elt Ideal)) : StableHlo.after hostOps1_9 U (Proc.devRef .tc main_v25)
    = concatenate S1703936x2 1
        [⟨S1703936x1, broadcastInDim S1703936x1 ![0] bcast_S1703936_S1703936x1_0 (U (Proc.devRef .tc main_v20))⟩,
          ⟨S1703936x1, broadcastInDim S1703936x1 ![0] bcast_S1703936_S1703936x1_0 (U (Proc.devRef .tc main_v21))⟩]
        concatenates_S1703936x1_S1703936x1_S1703936x2_d1 := by
  after_results
  first | done | rfl

/-! ## The two attribute columns, boundary by boundary -/

theorem W3_v13 (c : Dev nD) : W3 m ρ c (Proc.devRef .tc main_v13) = e0Cat (m ((c : Thread nD τ).loc main_arg10)) :=
  (open1_v13 (W2 m ρ c)).trans (congrArg e0Cat (W2_arg10 m ρ c))

theorem W7_v13 (c : Dev nD) : W7 m ρ c (Proc.devRef .tc main_v13) = e0Cat (m ((c : Thread nD τ).loc main_arg10)) :=
  calc W7 m ρ c (Proc.devRef .tc main_v13)
    _ = W6 m ρ c (Proc.devRef .tc main_v13) := keep1_4 _ main_v13 (by decide)
    _ = W5 m ρ c (Proc.devRef .tc main_v13) := keep1_3 _ main_v13 (by decide)
    _ = W4 m ρ c (Proc.devRef .tc main_v13) := keep1_2 _ main_v13 (by decide)
    _ = W3 m ρ c (Proc.devRef .tc main_v13) := keep1_1 _ main_v13 (by decide)
    _ = e0Cat (m ((c : Thread nD τ).loc main_arg10)) := W3_v13 m ρ c

theorem W8_v20 (c : Dev nD) : W8 m ρ c (Proc.devRef .tc main_v20) = e0Pad (m ((c : Thread nD τ).loc main_arg10)) :=
  (open1_5_v20 (W7 m ρ c)).trans (congrArg₂ padTail (W7_v13 m ρ c) (open1_4_c3 (W6 m ρ c)))

theorem W11_v20 (c : Dev nD) : W11 m ρ c (Proc.devRef .tc main_v20) = e0Pad (m ((c : Thread nD τ).loc main_arg10)) :=
  calc W11 m ρ c (Proc.devRef .tc main_v20)
    _ = W10 m ρ c (Proc.devRef .tc main_v20) := keep1_8 _ main_v20 (by decide)
    _ = W9 m ρ c (Proc.devRef .tc main_v20) := keep1_7 _ main_v20 (by decide)
    _ = W8 m ρ c (Proc.devRef .tc main_v20) := keep1_6 _ main_v20 (by decide)
    _ = e0Pad (m ((c : Thread nD τ).loc main_arg10)) := W8_v20 m ρ c

theorem W3_v17 (c : Dev nD) : W3 m ρ c (Proc.devRef .tc main_v17) = e1Cat (m ((c : Thread nD τ).loc main_arg10)) :=
  (open1_v17 (W2 m ρ c)).trans (congrArg e1Cat (W2_arg10 m ρ c))

theorem W9_v17 (c : Dev nD) : W9 m ρ c (Proc.devRef .tc main_v17) = e1Cat (m ((c : Thread nD τ).loc main_arg10)) :=
  calc W9 m ρ c (Proc.devRef .tc main_v17)
    _ = W8 m ρ c (Proc.devRef .tc main_v17) := keep1_6 _ main_v17 (by decide)
    _ = W7 m ρ c (Proc.devRef .tc main_v17) := keep1_5 _ main_v17 (by decide)
    _ = W6 m ρ c (Proc.devRef .tc main_v17) := keep1_4 _ main_v17 (by decide)
    _ = W5 m ρ c (Proc.devRef .tc main_v17) := keep1_3 _ main_v17 (by decide)
    _ = W4 m ρ c (Proc.devRef .tc main_v17) := keep1_2 _ main_v17 (by decide)
    _ = W3 m ρ c (Proc.devRef .tc main_v17) := keep1_1 _ main_v17 (by decide)
    _ = e1Cat (m ((c : Thread nD τ).loc main_arg10)) := W3_v17 m ρ c

theorem W10_v21 (c : Dev nD) : W10 m ρ c (Proc.devRef .tc main_v21) = e1Pad (m ((c : Thread nD τ).loc main_arg10)) :=
  (open1_7_v21 (W9 m ρ c)).trans (congrArg₂ padTail (W9_v17 m ρ c) (open1_6_c4 (W8 m ρ c)))

theorem W11_v21 (c : Dev nD) : W11 m ρ c (Proc.devRef .tc main_v21) = e1Pad (m ((c : Thread nD τ).loc main_arg10)) :=
  calc W11 m ρ c (Proc.devRef .tc main_v21)
    _ = W10 m ρ c (Proc.devRef .tc main_v21) := keep1_8 _ main_v21 (by decide)
    _ = e1Pad (m ((c : Thread nD τ).loc main_arg10)) := W10_v21 m ρ c

/-- Region 1's attribute operand: the two padded columns side by side, a [1703936, 2] array of words. -/
theorem V12_v25 (c : Dev nD) : V12 m ρ c main_v25
    = concatenate S1703936x2 1
        [⟨S1703936x1, broadcastInDim S1703936x1 ![0] bcast_S1703936_S1703936x1_0 (e0Pad (m ((c : Thread nD τ).loc main_arg10)))⟩,
          ⟨S1703936x1, broadcastInDim S1703936x1 ![0] bcast_S1703936_S1703936x1_0 (e1Pad (m ((c : Thread nD τ).loc main_arg10)))⟩]
        concatenates_S1703936x1_S1703936x1_S1703936x2_d1 := by
  have e := open1_9_v25 (W11 m ρ c)
  rw [W11_v20, W11_v21] at e
  exact e

/-- The scatter-add stretch: a zero array, the target column, and the scatter of the rows before it. -/
theorem open2_v29 (U : Valuation τ sig (Elt Ideal)) : StableHlo.after hostOps2 U (Proc.devRef .tc main_v29)
    = Host.scatterAdd scatter_S100000x128_S1703936x1_S1703936x128_1_0_0_1
        (broadcastInDim S100000x128 ![] bcast_S_S100000x128 (constant (F := Ideal) S_ .f32 0x00000000#32))
        (broadcastInDim S1703936x1 ![0] bcast_S1703936_S1703936x1_0 (U (Proc.devRef .tc main_v19)))
        (U (Proc.devRef .tc main_v26)) := by
  after_results
  first | done | rfl

/-! ## The padded targets, boundary by boundary -/

theorem W3_v9 (c : Dev nD) : W3 m ρ c (Proc.devRef .tc main_v9) = dstCat (m ((c : Thread nD τ).loc main_arg9)) :=
  (open1_v9 (W2 m ρ c)).trans (congrArg dstCat (W2_arg9 m ρ c))

theorem W5_v9 (c : Dev nD) : W5 m ρ c (Proc.devRef .tc main_v9) = dstCat (m ((c : Thread nD τ).loc main_arg9)) :=
  calc W5 m ρ c (Proc.devRef .tc main_v9)
    _ = W4 m ρ c (Proc.devRef .tc main_v9) := keep1_2 _ main_v9 (by decide)
    _ = W3 m ρ c (Proc.devRef .tc main_v9) := keep1_1 _ main_v9 (by decide)
    _ = dstCat (m ((c : Thread nD τ).loc main_arg9)) := W3_v9 m ρ c

theorem W6_v19 (c : Dev nD) : W6 m ρ c (Proc.devRef .tc main_v19) = dstPad (m ((c : Thread nD τ).loc main_arg9)) :=
  (open1_3_v19 (W5 m ρ c)).trans (congrArg₂ padTail (W5_v9 m ρ c) (open1_2_c2 (W4 m ρ c)))

theorem W13_v19 (c : Dev nD) : W13 m ρ c (Proc.devRef .tc main_v19) = dstPad (m ((c : Thread nD τ).loc main_arg9)) :=
  calc W13 m ρ c (Proc.devRef .tc main_v19)
    _ = W12 m ρ c (Proc.devRef .tc main_v19) := W13_of_ne m ρ c main_v19 (by decide)
    _ = W11 m ρ c (Proc.devRef .tc main_v19) := keep1_9 _ main_v19 (by decide)
    _ = W10 m ρ c (Proc.devRef .tc main_v19) := keep1_8 _ main_v19 (by decide)
    _ = W9 m ρ c (Proc.devRef .tc main_v19) := keep1_7 _ main_v19 (by decide)
    _ = W8 m ρ c (Proc.devRef .tc main_v19) := keep1_6 _ main_v19 (by decide)
    _ = W7 m ρ c (Proc.devRef .tc main_v19) := keep1_5 _ main_v19 (by decide)
    _ = W6 m ρ c (Proc.devRef .tc main_v19) := keep1_4 _ main_v19 (by decide)
    _ = dstPad (m ((c : Thread nD τ).loc main_arg9)) := W6_v19 m ρ c

/-- Region 2's first operand: region 1's rows added into a zero [100000, 128] array at the padded targets. -/
theorem V14_v29 (c : Dev nD) : V14 m ρ c main_v29
    = Host.scatterAdd scatter_S100000x128_S1703936x1_S1703936x128_1_0_0_1
        (broadcastInDim S100000x128 ![] bcast_S_S100000x128 (constant (F := Ideal) S_ .f32 0x00000000#32))
        (broadcastInDim S1703936x1 ![0] bcast_S1703936_S1703936x1_0 (dstPad (m ((c : Thread nD τ).loc main_arg9))))
        (W13 m ρ c (Proc.devRef .tc main_v26)) := by
  have e := open2_v29 (W13 m ρ c)
  rw [W13_v19] at e
  exact e

/-! ## The row lookup's index handling

A lookup of row `ix` in a table of 100000 rows first wraps a negative index once by the table's length, then gathers at
the wrapped index, and keeps the gathered row only where the wrapped index lies in 0 … 99999. -/

/-- A negative index is moved up by 100000; any other is kept. -/
def takeWrap (ix : IVec S1703936 32) : IVec S1703936 32 :=
  select (cmpi .slt ix (broadcastInDim S1703936 ![] bcast_S_S1703936 (constantI S_ 32 0#32)))
    (addi ix (broadcastInDim S1703936 ![] bcast_S_S1703936 (constantI S_ 32 100000#32))) ix

/-- The wrapped indices as a [1703936, 1] column: the gather's index operand. -/
def takeCol (ix : IVec S1703936 32) : IVec S1703936x1 32 :=
  broadcastInDim S1703936x1 ![0] bcast_S1703936_S1703936x1_0 (takeWrap ix)

/-- The range mask: bit 1 exactly where the wrapped index is at least 0 and at most 99999 (the conjunction over the
    column's one coordinate). -/
def takeMask (ix : IVec S1703936 32) : IVec S1703936 1 :=
  Host.reduce IntOp.andi
    (andi (cmpi .sge (takeCol ix) (broadcastInDim S1703936x1 ![] bcast_S_S1703936x1 (constantI S_ 32 0#32)))
      (cmpi .sle (takeCol ix)
        (broadcastInDim S1703936x1 ![0, 1] bcast_S1x1_S1703936x1_0_1
          (broadcastInDim S1x1 ![1] bcast_S1_S1x1_1 (constantI S1 32 99999#32)))))
    (constantI S_ 1 1#1) reducesTo_S1703936x1_S1703936_d1 h_S_

/-! ## The lookup stretch, cut in two

Its first eighteen operations compute the wrapped index column and the range mask from the index vector; its last five
gather the rows, spread the mask over the row width, and choose between the gathered row and a fixed fill word. Each
operation passes its value through the callee's own buffers along identity casts, which change nothing. -/

/-- The line run as its first eighteen operations, then the remaining five. -/
theorem take_cut (U : Valuation τ sig (Elt Ideal)) (b : DevRef τ sig) :
    StableHlo.after hostOps1_8 U b
      = StableHlo.after (List.drop 18 hostOps1_8) (StableHlo.after (List.take 18 hostOps1_8) U) b := by
  rw [← StableHlo.after_append, List.take_append_drop]

set_option maxHeartbeats 1000000 in
/-- After the head: the range mask of the wrapped indices. -/
theorem take_head_mask (U : Valuation τ sig (Elt Ideal)) :
    StableHlo.after (List.take 18 hostOps1_8) U (Proc.devRef .tc main_call4_v12) = takeMask (U (Proc.devRef .tc main_v18)) := by
  simp only [hostOps1_8, List.take_succ_cons, List.take_zero]
  after_results
  simp only [StableHlo.TRef.ofBuf, StableHlo.TRef.toBuf, cast_eq]
  first | done | (unfold takeMask takeCol takeWrap; with_reducible rfl)

set_option maxHeartbeats 1000000 in
/-- After the head: the wrapped indices as a column. -/
theorem take_head_col (U : Valuation τ sig (Elt Ideal)) :
    StableHlo.after (List.take 18 hostOps1_8) U (Proc.devRef .tc main_call4_v5) = takeCol (U (Proc.devRef .tc main_v18)) := by
  simp only [hostOps1_8, List.take_succ_cons, List.take_zero]
  after_results
  simp only [StableHlo.TRef.ofBuf, StableHlo.TRef.toBuf, cast_eq]
  first | done | (unfold takeCol takeWrap; with_reducible rfl)

set_option maxHeartbeats 1000000 in
/-- The head does not write the table. -/
theorem take_head_table (U : Valuation τ sig (Elt Ideal)) :
    StableHlo.after (List.take 18 hostOps1_8) U (Proc.devRef .tc main_v2) = U (Proc.devRef .tc main_v2) := by
  simp only [hostOps1_8, List.take_succ_cons, List.take_zero]
  after_results
  first | done | rfl

/-- The tail: gather, spread the mask, choose. -/
theorem take_tail (U : Valuation τ sig (Elt Ideal)) :
    StableHlo.after (List.drop 18 hostOps1_8) U (Proc.devRef .tc main_v22)
      = select (broadcastInDim S1703936x128 ![0] bcast_S1703936_S1703936x128_0 (U (Proc.devRef .tc main_call4_v12)))
          (Host.gather gather_S100000x128_S1703936x1_S1703936x128_1_0_n_n_0_1_1128 (U (Proc.devRef .tc main_v2)) (U (Proc.devRef .tc main_call4_v5)))
          (broadcastInDim S1703936x128 ![] bcast_S_S1703936x128 (constant (F := Ideal) S_ .f32 0x7FC00000#32)) := by
  simp only [hostOps1_8, List.drop_succ_cons, List.drop_zero]
  after_results
  simp only [StableHlo.TRef.ofBuf, StableHlo.TRef.toBuf, cast_eq]
  first | done | with_reducible rfl

/-- The lookup stretch whole: the gathered rows where the mask is set, the fill word elsewhere. -/
theorem open1_8_v22 (U : Valuation τ sig (Elt Ideal)) : StableHlo.after hostOps1_8 U (Proc.devRef .tc main_v22)
    = select (broadcastInDim S1703936x128 ![0] bcast_S1703936_S1703936x128_0 (takeMask (U (Proc.devRef .tc main_v18))))
        (Host.gather gather_S100000x128_S1703936x1_S1703936x128_1_0_n_n_0_1_1128 (U (Proc.devRef .tc main_v2)) (takeCol (U (Proc.devRef .tc main_v18))))
        (broadcastInDim S1703936x128 ![] bcast_S_S1703936x128 (constant (F := Ideal) S_ .f32 0x7FC00000#32)) := by
  rw [take_cut, take_tail, take_head_mask, take_head_col, take_head_table]

/-! ## The padded sources and region 0's output, boundary by boundary -/

theorem W3_v6 (c : Dev nD) : W3 m ρ c (Proc.devRef .tc main_v6) = srcCat (m ((c : Thread nD τ).loc main_arg9)) :=
  (open1_v6 (W2 m ρ c)).trans (congrArg srcCat (W2_arg9 m ρ c))

theorem W4_v18 (c : Dev nD) : W4 m ρ c (Proc.devRef .tc main_v18) = srcPad (m ((c : Thread nD τ).loc main_arg9)) :=
  (open1_1_v18 (W3 m ρ c)).trans (congrArg₂ padTail (W3_v6 m ρ c) (open1_c1 (W2 m ρ c)))

theorem W10_v18 (c : Dev nD) : W10 m ρ c (Proc.devRef .tc main_v18) = srcPad (m ((c : Thread nD τ).loc main_arg9)) :=
  calc W10 m ρ c (Proc.devRef .tc main_v18)
    _ = W9 m ρ c (Proc.devRef .tc main_v18) := keep1_7 _ main_v18 (by decide)
    _ = W8 m ρ c (Proc.devRef .tc main_v18) := keep1_6 _ main_v18 (by decide)
    _ = W7 m ρ c (Proc.devRef .tc main_v18) := keep1_5 _ main_v18 (by decide)
    _ = W6 m ρ c (Proc.devRef .tc main_v18) := keep1_4 _ main_v18 (by decide)
    _ = W5 m ρ c (Proc.devRef .tc main_v18) := keep1_3 _ main_v18 (by decide)
    _ = W4 m ρ c (Proc.devRef .tc main_v18) := keep1_2 _ main_v18 (by decide)
    _ = srcPad (m ((c : Thread nD τ).loc main_arg9)) := W4_v18 m ρ c

/-- No stretch between region 0 and the lookup writes region 0's output array. -/
theorem W10_v2 (c : Dev nD) : W10 m ρ c (Proc.devRef .tc main_v2) = W2 m ρ c (Proc.devRef .tc main_v2) :=
  calc W10 m ρ c (Proc.devRef .tc main_v2)
    _ = W9 m ρ c (Proc.devRef .tc main_v2) := keep1_7 _ main_v2 (by decide)
    _ = W8 m ρ c (Proc.devRef .tc main_v2) := keep1_6 _ main_v2 (by decide)
    _ = W7 m ρ c (Proc.devRef .tc main_v2) := keep1_5 _ main_v2 (by decide)
    _ = W6 m ρ c (Proc.devRef .tc main_v2) := keep1_4 _ main_v2 (by decide)
    _ = W5 m ρ c (Proc.devRef .tc main_v2) := keep1_3 _ main_v2 (by decide)
    _ = W4 m ρ c (Proc.devRef .tc main_v2) := keep1_2 _ main_v2 (by decide)
    _ = W3 m ρ c (Proc.devRef .tc main_v2) := keep1_1 _ main_v2 (by decide)
    _ = W2 m ρ c (Proc.devRef .tc main_v2) := keep1 _ main_v2 (by decide)

/-- Region 1's row operand: the rows of region 0's output looked up at the padded sources. -/
theorem V12_v22 (c : Dev nD) : V12 m ρ c main_v22
    = select (broadcastInDim S1703936x128 ![0] bcast_S1703936_S1703936x128_0 (takeMask (srcPad (m ((c : Thread nD τ).loc main_arg9)))))
        (Host.gather gather_S100000x128_S1703936x1_S1703936x128_1_0_n_n_0_1_1128 (W2 m ρ c (Proc.devRef .tc main_v2))
          (takeCol (srcPad (m ((c : Thread nD τ).loc main_arg9)))))
        (broadcastInDim S1703936x128 ![] bcast_S_S1703936x128 (constant (F := Ideal) S_ .f32 0x7FC00000#32)) := by
  have e := open1_8_v22 (W10 m ρ c)
  rw [W10_v18, W10_v2] at e
  exact (keep1_9 _ main_v22 (by decide)).trans e

end Cert.KernelIdeal.Fold

end
-- ==== Proof.Spec.lean ====
/-
  One graph-isomorphism convolution layer, as three whole-array functions on the extended reals.

  Nodes carry feature rows x_r. First every row passes a leaky rectifier with one learnt slope w (an entry stays where it
  is non-negative and is multiplied by w otherwise) and a bias-free linear map: h_r = prelu(x_r) · Wt. Then every edge p,
  from node s(p) with a bond type a(p) and a bond direction b(p), sends the message h_{s(p)} + (T1_{a(p)} + T2_{b(p)}),
  the two small tables being read by a one-hot row: the sum over the table's rows k of [a(p) = k] · T1_k. The messages are
  added up at their destination nodes, and each node's total passes a two-layer perceptron with a rectifier between the
  layers: out_r = max(g_r · W1t + b1, 0) · W2t + b2.

  The three functions are stated over any sizes; indices are built from coordinates.
-/
import Idealize.ShloMosaic.PureOps.Ideal
import Idealize.ShloMosaic.Lib.ValueIdx

noncomputable section

open scoped BigOperators

namespace Cert.GinConv

open Idealize.ShloMosaic Idealize.ShloMosaic.ValueIdx

/-- The shape of a matrix of a rows and b columns. -/
abbrev Mat (a b : ℕ) : Shape := ⟨2, ![a, b]⟩

/-- The leaky rectifier with slope w: x where x is at least zero, w · x otherwise. -/
def leaky (w x : EReal) : EReal :=
  Scalar.select (FloatOps.cmpf (F := Ideal) (φ := .f32) .oge x (Ideal.ofBits .f32 0x00000000#32)) x (w * x)

/-- Rectified rows through a linear map: entry (r, o) is the sum over k of leaky w x(r, k) · Wt(k, o). -/
def projRows {n d e : ℕ} (w : EReal) (x : (Mat n d).Idx → EReal) (wt : (Mat d e).Idx → EReal) : (Mat n e).Idx → EReal :=
  fun i => ∑ k : Fin d, leaky w (x (ix2 (i 0) k)) * wt (ix2 k (i 1))

/-- A one-hot row against a table: the sum over the table's rows k of [word = k] · T(k, o). -/
def oneHotRow {K e : ℕ} (word : BitVec 32) (T : (Mat K e).Idx → EReal) (o : Fin e) : EReal :=
  ∑ k : Fin K, FloatOps.sitofp (F := Ideal) .f32 ((IntOp.cmpi .eq word (BitVec.ofNat 32 k.val)).setWidth 32) * T (ix2 k o)

/-- An edge's message: the gathered row plus the two table rows its words select. -/
def combineRows {M e K1 K2 : ℕ} (hs : (Mat M e).Idx → EReal) (words : (Mat M 2).Idx → BitVec 32)
    (T1 : (Mat K1 e).Idx → EReal) (T2 : (Mat K2 e).Idx → EReal) : (Mat M e).Idx → EReal :=
  fun i => hs i + (oneHotRow (words (ix2 (i 0) (0 : Fin 2))) T1 (i 1) + oneHotRow (words (ix2 (i 0) (1 : Fin 2))) T2 (i 1))

/-- The hidden layer of the perceptron at (r, j): max(g_r · W1t(·, j) + b1(j), 0). -/
def hidden {n d h : ℕ} (g : (Mat n d).Idx → EReal) (w1t : (Mat d h).Idx → EReal) (b1 : (Mat 1 h).Idx → EReal)
    (r : Fin n) (j : Fin h) : EReal :=
  max (∑ k : Fin d, g (ix2 r k) * w1t (ix2 k j) + b1 (ix2 (0 : Fin 1) j)) (Ideal.ofBits .f32 0x00000000#32)

/-- The perceptron on every row: entry (r, o) is the sum over j of hidden(r, j) · W2t(j, o), plus b2(o). -/
def mlpRows {n d h e : ℕ} (g : (Mat n d).Idx → EReal) (w1t : (Mat d h).Idx → EReal) (b1 : (Mat 1 h).Idx → EReal)
    (w2t : (Mat h e).Idx → EReal) (b2 : (Mat 1 e).Idx → EReal) : (Mat n e).Idx → EReal :=
  fun i => ∑ j : Fin h, hidden g w1t b1 (i 0) j * w2t (ix2 j (i 1)) + b2 (ix2 (0 : Fin 1) (i 1))

end Cert.GinConv

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.Region0.lean ====
/-
  What the projection kernel leaves in its output array.

  The grid has twenty points; point t works on rows 5000·t … 5000·t + 4999 of the node features x, with the slope w and the
  transposed weight matrix Wt whole at every point. Its body rectifies the block of x entrywise with slope w and multiplies
  it by Wt, so the block it writes back is rows 5000·t … of the array whose entry (r, o) is the sum over k of
  leaky w x(r, k) · Wt(k, o). The twenty blocks tile the output array, which therefore ends holding that array, whole.
-/
import proofs.«417791_j37349035606505_1_alg».proof.Proof.Gen.KernelIdeal.Frame
import proofs.«417791_j37349035606505_1_alg».proof.Proof.Spec
import proofs.«417791_j37349035606505_1_alg».proof.Proof.LibDotPlain
import Idealize.ShloMosaic.Lib.Pipeline.Value
import Idealize.ShloMosaic.Lib.ValueLayout

set_option maxRecDepth 16384

noncomputable section

open scoped BigOperators

namespace Cert.KernelIdeal.Region0

open Cert.KernelIdeal Cert.KernelIdeal.Gen Cert.GinConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's one stored value at (p, q): the rectified row p of the x block against column q of Wt. The matrix unit's
    product into the zero accumulator is a plain sum over the contracted coordinate; the roundings on the way in are the
    identity on the extended reals; the slope is the one entry of the [1, 1] block. -/
theorem pay_apply (x0 : Vec Ideal S1x1 .f32) (x1 : Vec Ideal S5000x128 .f32) (x2 : Vec Ideal S128x128 .f32)
    (p : Fin 5000) (q : Fin 128) :
    k0_pay1 x0 x1 x2 (ix2 p q) = ∑ k : Fin 128, leaky (x0 (ix2 (0 : Fin 1) (0 : Fin 1))) (x1 (ix2 p k)) * x2 (ix2 k q) := by
  unfold k0_pay1
  refine (Cert.LibDotPlain.matmul_zero_apply _ none _ _ p q).trans ?_
  refine Finset.sum_congr rfl fun k _ => ?_
  have hx2 : shapeCast S128x128 x2 shapeCasts_S128x128_S128x128 = x2 := shapeCast_self _ _
  have hx0 : extractAt ![0, 0] x0 inpos_S1x1_p0_0 = x0 (ix2 (0 : Fin 1) (0 : Fin 1)) :=
    congrArg x0 (funext fun a => Fin.ext (by match a with | ⟨0, _⟩ => rfl | ⟨1, _⟩ => rfl))
  rw [hx0, hx2]
  rfl

theorem hz : (![0, 0] : Fin 2 → Nat) = fun _ => 0 := funext fun a => by fin_cases a <;> rfl

/-- The printed index maps over the grid: the x block and the output block of point t are block t of their arrays along
    the rows; the slope and the weight matrix are block (0, 0), the whole array, at every point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The slope block read at its one entry is the slope array's one entry. -/
theorem read_w (c : Dev nD) (t : Fin cfg0.N) :
    iblk0 V c 0 t (ix2 (0 : Fin 1) (0 : Fin 1)) = V c main_v1 (ix2 (0 : Fin 1) (0 : Fin 1)) := by
  obtain ⟨e0, e1, -⟩ := idx_facts t
  show V c main_v1 (((cfg0.win 0).blk t).view.emb (ix2 (0 : Fin 1) (0 : Fin 1))) = _
  refine congrArg (V c main_v1) (funext fun a => Fin.ext ?_)
  match a with
  | ⟨0, _⟩ => show win0_0.index t (0 : Fin 2) * 1 + 1 * 0 = 0; omega
  | ⟨1, _⟩ => show win0_0.index t (1 : Fin 2) * 1 + 1 * 0 = 0; omega

/-- The x block of point t at (p, k) is x at row 5000·t + p, column k. -/
theorem read_x (c : Dev nD) (t : Fin cfg0.N) (p : Fin 5000) (k : Fin 128) (r : Fin 100000) (hr : r.val = t.val * 5000 + p.val) :
    iblk0 V c 1 t (ix2 p k) = V c main_arg0 (ix2 r k) := by
  obtain ⟨-, -, e2, e3, -⟩ := idx_facts t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weight block of any point at (k, q) is the weight array there. -/
theorem read_wt (c : Dev nD) (t : Fin cfg0.N) (k q : Fin 128) :
    iblk0 V c 2 t (ix2 k q) = V c main_v0 (ix2 k q) := by
  obtain ⟨-, -, -, -, e4, e5, -⟩ := idx_facts t
  show V c main_v0 (((cfg0.win 2).blk t).view.emb (ix2 k q)) = _
  refine congrArg (V c main_v0) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- What point t writes back is block t of the rectified rows of x through the linear map. -/
theorem flushed_eq (c : Dev nD) (t : Fin cfg0.N) :
    (dat0 (F := Ideal) V c).flushed 3 t
      = ((cfg0.win 3).blk t).view.read (Elt Ideal)
          (projRows (V c main_v1 (ix2 (0 : Fin 1) (0 : Fin 1))) (V c main_arg0) (V c main_v0)) := by
  show (cfg0.win 3).cut (grid0.coords t) ((dat0 V c).after 3 t) = _
  rw [after0_3]
  unfold out0_3
  rw [View.canon_unit_zero hz]
  simp only [View.ld_unit_zero (S := S1x1) hz, View.ld_unit_zero (S := S5000x128) hz, View.ld_unit_zero (S := S128x128) hz]
  obtain ⟨-, -, -, -, -, -, e6, e7⟩ := idx_facts t
  funext j
  obtain ⟨p, q, rfl⟩ : ∃ (p : Fin 5000) (q : Fin 128), j = ix2 p q := ⟨j 0, j 1, eq_ix2 j⟩
  have ht : t.val < 20 := by
    have h := t.isLt
    have e : cfg0.N = 20 := N_0
    omega
  have hrow : t.val * 5000 + p.val < 100000 := by have := p.isLt; omega
  have hemb : ((cfg0.win 3).blk t).view.emb (ix2 p q) = ix2 (⟨t.val * 5000 + p.val, hrow⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  refine (pay_apply _ _ _ p q).trans ?_
  show _ = projRows _ _ _ (((cfg0.win 3).blk t).view.emb (ix2 p q))
  rw [hemb, read_w V c t]
  unfold projRows
  refine Finset.sum_congr rfl fun k _ => ?_
  rw [read_x V c t p k ⟨t.val * 5000 + p.val, hrow⟩ rfl, read_wt V c t k q]

/-- An index of the output array is in point t's block iff each coordinate is in the block's range on its axis. -/
theorem mem_blk (t : Fin cfg0.N) (i : S100000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Every entry of the output array lies in the block of the point its row falls to: row r in block r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by show _ < grid0.N; rw [N_0]; omega
  refine ⟨⟨(i 0).val / 5000, hN⟩, flush0_3 _, ?_⟩
  rw [mem_blk]
  obtain ⟨-, -, -, -, -, -, e6, e7⟩ := idx_facts ⟨(i 0).val / 5000, hN⟩
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    rw [e7]; omega

/-- After all twenty grid points the output array holds the rectified rows of x through the linear map, whole. -/
theorem arr_out (c : Dev nD) :
    (dat0 (F := Ideal) V c).arrAt 3 cfg0.N
      = projRows (V c main_v1 (ix2 (0 : Fin 1) (0 : Fin 1))) (V c main_arg0) (V c main_v0) :=
  (dat0 (F := Ideal) V c).arrAt_eq_of_cover 3 _ (fun t _ => flushed_eq V c t) cover

end Cert.KernelIdeal.Region0

end
-- ==== Proof.Region2.lean ====
/-
  Region 2: what the perceptron kernel leaves in its output array.

  The grid has twenty points. Point t holds rows 5000·t … 5000·t + 4999 of the aggregated node rows g; the two transposed
  weight matrices W1t, W2t and the two bias rows b1, b2 are whole at every point. The body multiplies the block of g by
  W1t, adds b1 to every row, takes the maximum with zero, multiplies the result by W2t and adds b2 to every row. On the
  extended reals every rounding on the way is the identity and a product accumulated from zero is a plain finite sum, so
  the block written back at point t is rows 5000·t … of the array whose entry (r, o) is
  Σ_j max(Σ_k g(r, k) · W1t(k, j) + b1(j), 0) · W2t(j, o) + b2(o). The twenty row blocks tile the output array, which
  therefore ends holding that array, whole.
-/
import proofs.«417791_j37349035606505_1_alg».proof.Proof.Gen.KernelIdeal.Frame
import proofs.«417791_j37349035606505_1_alg».proof.Proof.Spec
import proofs.«417791_j37349035606505_1_alg».proof.Proof.LibDotPlain
import Idealize.ShloMosaic.Lib.Pipeline.Value
import Idealize.ShloMosaic.Lib.ValueLayout

set_option maxRecDepth 16384

noncomputable section

open scoped BigOperators

namespace Cert.KernelIdeal.Region2

open Cert.KernelIdeal Cert.KernelIdeal.Gen Cert.GinConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's stored value at an index -/

/-- A bias row [1, n] spread over the m rows of a block: entry (p, j) is the row's entry (0, j). -/
theorem biasRow_apply {m n : Nat} (hn : n ≠ 1) (x : (⟨2, ![1, n]⟩ : Shape).Idx → EReal)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 (0 : Fin 1) j) fun a => ?_
  match a with
  | ⟨0, _⟩ => rfl
  | ⟨1, _⟩ => exact (if_neg hn).symm

/-- The first product, a block of rows against W1t accumulated from zero, at (p, j): the sum over k of A(p, k) · B(k, j). -/
theorem firstProduct_apply (A : FVec Ideal S5000x128 .bf16) (B : FVec Ideal S128x256 .bf16) (p : Fin 5000) (j : Fin 256) :
    matmul dot_S5000x128_S128x256_S5000x256_1_0_0_1_n_n none A B (constant (F := Ideal) S5000x256 .f32 0x00000000#32) (ix2 p j)
      = ∑ k : Fin 128, A (ix2 p k) * B (ix2 k j) :=
  Cert.LibDotPlain.matmul_zero_apply dot_S5000x128_S128x256_S5000x256_1_0_0_1_n_n_wf none A B p j

/-- The second product, the hidden block against W2t accumulated from zero, at (p, q): the sum over j of A(p, j) · B(j, q). -/
theorem secondProduct_apply (A : FVec Ideal S5000x256 .bf16) (B : FVec Ideal S256x128 .bf16) (p : Fin 5000) (q : Fin 128) :
    matmul dot_S5000x256_S256x128_S5000x128_1_0_0_1_n_n none A B (constant (F := Ideal) S5000x128 .f32 0x00000000#32) (ix2 p q)
      = ∑ j : Fin 256, A (ix2 p j) * B (ix2 j q) :=
  Cert.LibDotPlain.matmul_zero_apply dot_S5000x256_S256x128_S5000x128_1_0_0_1_n_n_wf none A B p q

/-- The body's one stored value at (p, q), over any five loaded blocks: the two-layer perceptron of row p of the first
    block, read at column q. The same-shape casts are the identity, the roundings to the narrower format are the identity on
    the extended reals, and the scalar zero spread over the block is zero at every entry. -/
theorem perceptron_apply (x0 : Vec Ideal S5000x128 .f32) (x1 : Vec Ideal S128x256 .f32) (x2 : Vec Ideal S1x256 .f32)
    (x3 : Vec Ideal S256x128 .f32) (x4 : Vec Ideal S1x128 .f32) (p : Fin 5000) (q : Fin 128) :
    k2_pay1 (F := Ideal) x0 x1 x2 x3 x4 (ix2 p q)
      = ∑ j : Fin 256, max (∑ k : Fin 128, x0 (ix2 p k) * x1 (ix2 k j) + x2 (ix2 (0 : Fin 1) j)) (Ideal.ofBits .f32 0x00000000#32)
          * x3 (ix2 j q) + x4 (ix2 (0 : Fin 1) q) := by
  unfold k2_pay1
  simp only [shapeCast_self]
  rw [addf_apply, secondProduct_apply, biasRow_apply (by decide)]
  congr 1
  refine Finset.sum_congr rfl fun j _ => ?_
  rw [truncf_apply, truncf_apply, maximumf_apply, addf_apply, firstProduct_apply, biasRow_apply (by decide), broadcast_apply]
  rfl

/-! ## From the twenty row blocks to the array -/

/-- Every load and the store of the body go through the rectangle at offsets (0, 0). -/
theorem zeroOffsets : (![0, 0] : Fin 2 → Nat) = fun _ => 0 := funext fun a => by fin_cases a <;> rfl

/-- The printed index maps over the grid: at point t the block of g and the output block are block t along the rows; the
    weight matrices and the bias rows are block (0, 0), the whole array, at every point. -/
theorem blockIndices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of g at point t, at (p, k), is g at row 5000·t + p, column k. -/
theorem rows_at (c : Dev nD) (t : Fin cfg2.N) (p : Fin 5000) (k : Fin 128) (r : Fin 100000)
    (hr : r.val = t.val * 5000 + p.val) :
    iblk2 V c 0 t (ix2 p k) = V c main_v29 (ix2 r k) := by
  obtain ⟨e0, e1, -⟩ := blockIndices t
  show V c main_v29 (((cfg2.win 0).blk t).view.emb (ix2 p k)) = _
  refine congrArg (V c main_v29) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The block of W1t at any point is W1t. -/
theorem w1t_at (c : Dev nD) (t : Fin cfg2.N) (k : Fin 128) (j : Fin 256) :
    iblk2 V c 1 t (ix2 k j) = V c main_v30 (ix2 k j) := by
  obtain ⟨-, -, e2, e3, -⟩ := blockIndices t
  show V c main_v30 (((cfg2.win 1).blk t).view.emb (ix2 k j)) = _
  refine congrArg (V c main_v30) (funext fun a => Fin.ext ?_)
  match a with
  | ⟨0, _⟩ => show win2_1.index t (0 : Fin 2) * 128 + 1 * k.val = k.val; omega
  | ⟨1, _⟩ => show win2_1.index t (1 : Fin 2) * 256 + 1 * j.val = j.val; omega

/-- The block of b1 at any point is b1. -/
theorem b1_at (c : Dev nD) (t : Fin cfg2.N) (j : Fin 256) :
    iblk2 V c 2 t (ix2 (0 : Fin 1) j) = V c main_v32 (ix2 (0 : Fin 1) j) := by
  obtain ⟨-, -, -, -, e4, e5, -⟩ := blockIndices t
  show V c main_v32 (((cfg2.win 2).blk t).view.emb (ix2 (0 : Fin 1) j)) = _
  refine congrArg (V c main_v32) (funext fun a => Fin.ext ?_)
  match a with
  | ⟨0, _⟩ => show win2_2.index t (0 : Fin 2) * 1 + 1 * 0 = 0; omega
  | ⟨1, _⟩ => show win2_2.index t (1 : Fin 2) * 256 + 1 * j.val = j.val; omega

/-- The block of W2t at any point is W2t. -/
theorem w2t_at (c : Dev nD) (t : Fin cfg2.N) (j : Fin 256) (q : Fin 128) :
    iblk2 V c 3 t (ix2 j q) = V c main_v31 (ix2 j q) := by
  obtain ⟨-, -, -, -, -, -, e6, e7, -⟩ := blockIndices t
  show V c main_v31 (((cfg2.win 3).blk t).view.emb (ix2 j q)) = _
  refine congrArg (V c main_v31) (funext fun a => Fin.ext ?_)
  match a with
  | ⟨0, _⟩ => show win2_3.index t (0 : Fin 2) * 256 + 1 * j.val = j.val; omega
  | ⟨1, _⟩ => show win2_3.index t (1 : Fin 2) * 128 + 1 * q.val = q.val; omega

/-- The block of b2 at any point is b2. -/
theorem b2_at (c : Dev nD) (t : Fin cfg2.N) (q : Fin 128) :
    iblk2 V c 4 t (ix2 (0 : Fin 1) q) = V c main_v33 (ix2 (0 : Fin 1) q) := by
  obtain ⟨-, -, -, -, -, -, -, -, e8, e9, -⟩ := blockIndices t
  show V c main_v33 (((cfg2.win 4).blk t).view.emb (ix2 (0 : Fin 1) q)) = _
  refine congrArg (V c main_v33) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- What point t writes back is block t of the perceptron of every aggregated row. -/
theorem writeBack_eq (c : Dev nD) (t : Fin cfg2.N) :
    (dat2 (F := Ideal) V c).flushed 5 t
      = ((cfg2.win 5).blk t).view.read (Elt Ideal)
          (mlpRows (V c main_v29) (V c main_v30) (V c main_v32) (V c main_v31) (V c main_v33)) := by
  show (cfg2.win 5).cut (grid2.coords t) ((dat2 V c).after 5 t) = _
  rw [after2_5]
  unfold out2_5
  rw [View.canon_unit_zero zeroOffsets]
  simp only [View.ld_unit_zero (S := S5000x128) zeroOffsets, View.ld_unit_zero (S := S128x256) zeroOffsets,
    View.ld_unit_zero (S := S1x256) zeroOffsets, View.ld_unit_zero (S := S256x128) zeroOffsets,
    View.ld_unit_zero (S := S1x128) zeroOffsets]
  obtain ⟨-, -, -, -, -, -, -, -, -, -, e10, e11⟩ := blockIndices t
  funext y
  obtain ⟨p, q, rfl⟩ : ∃ (p : Fin 5000) (q : Fin 128), y = ix2 p q := ⟨y 0, y 1, eq_ix2 y⟩
  have ht : t.val < 20 := by
    have h := t.isLt
    have e : cfg2.N = 20 := N_2
    omega
  have hrow : t.val * 5000 + p.val < 100000 := by have := p.isLt; omega
  have hemb : ((cfg2.win 5).blk t).view.emb (ix2 p q) = ix2 (⟨t.val * 5000 + p.val, hrow⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  refine (perceptron_apply _ _ _ _ _ p q).trans ?_
  show _ = mlpRows _ _ _ _ _ (((cfg2.win 5).blk t).view.emb (ix2 p q))
  rw [hemb, b2_at V c t q]
  unfold mlpRows Cert.GinConv.hidden
  refine congrArg₂ (· + ·) (Finset.sum_congr rfl fun j _ => ?_) rfl
  rw [b1_at V c t j, w2t_at V c t j q]
  refine congrArg₂ (· * ·) (congrArg₂ max (congrArg₂ (· + ·) (Finset.sum_congr rfl fun k _ => ?_) rfl) rfl) rfl
  rw [rows_at V c t p k ⟨t.val * 5000 + p.val, hrow⟩ rfl, w1t_at V c t k j]

/-- An index of the output array is in point t's block iff each coordinate is in the block's range on its axis. -/
theorem mem_rowBlock (t : Fin cfg2.N) (i : S100000x128.Idx) :
    i ∈ ((cfg2.win 5).blk t).view.set
      ↔ ∀ a : Fin 2, win2_5.index t a * S5000x128.size a ≤ (i a).val ∧ (i a).val < win2_5.index t a * S5000x128.size a + S5000x128.size a := by
  show i ∈ ((View.whole main_v34).slice (win2_5.rect t)).set ↔ _
  rw [View.set_slice_whole, Rect.mem_set_unit]
  exact Iff.rfl

/-- Every entry of the output array lies in the block of the point its row falls to: row r in block r / 5000. -/
theorem rows_covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 5000 < cfg2.N := by show _ < grid2.N; rw [N_2]; omega
  refine ⟨⟨(i 0).val / 5000, hN⟩, flush2_5 _, ?_⟩
  rw [mem_rowBlock]
  obtain ⟨-, -, -, -, -, -, -, -, -, -, e10, e11⟩ := blockIndices ⟨(i 0).val / 5000, hN⟩
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e10]; show (i 0).val / 5000 * 5000 ≤ (i 0).val ∧ (i 0).val < (i 0).val / 5000 * 5000 + 5000; omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    rw [e11]; omega

/-- After all twenty grid points the output array holds the perceptron of every aggregated row, whole. -/
theorem arr_out (c : Dev nD) :
    (dat2 (F := Ideal) V c).arrAt 5 cfg2.N
      = mlpRows (V c main_v29) (V c main_v30) (V c main_v32) (V c main_v31) (V c main_v33) :=
  (dat2 (F := Ideal) V c).arrAt_eq_of_cover 5 _ (fun t _ => writeBack_eq V c t) rows_covered

end Cert.KernelIdeal.Region2

end
-- ==== Proof.Layouts.lean ====
/-
  Two re-layouts read as index functions.

  A matrix transposed is the matrix read at the swapped index. A vector of n entries recast as a one-row matrix [1, n]
  is the vector read at the column.
-/
import Idealize.ShloMosaic.Lib.Pipeline.Value
import Idealize.ShloMosaic.Lib.ValueIdx

noncomputable section

namespace Cert.GinConv

open Idealize.ShloMosaic Idealize.ShloMosaic.ValueIdx

variable {α : Type}

/-- The transpose of an [a, b] matrix at (i, j) is the matrix at (j, i). -/
theorem transpose_swap {a b : ℕ} (x : (⟨2, ![a, b]⟩ : Shape).Idx → α)
    (h : (⟨2, ![a, b]⟩ : Shape).Transposes [1, 0] ⟨2, ![b, a]⟩) :
    transpose ⟨2, ![b, a]⟩ [1, 0] x h = fun i => x (ix2 (i 1) (i 0)) := by
  funext i
  refine transpose_apply [1, 0] x h i (ix2 (i 1) (i 0)) ?_
  intro d
  match d with
  | ⟨0, _⟩ => rfl
  | ⟨1, _⟩ => rfl

/-- A vector recast as a one-row matrix, at (0, j), is the vector at j. -/
theorem reshape_row {n : ℕ} (x : (⟨1, ![n]⟩ : Shape).Idx → α)
    (h : (⟨1, ![n]⟩ : Shape).ShapeCasts ⟨2, ![1, n]⟩) :
    shapeCast ⟨2, ![1, n]⟩ x h = fun i => x (ix1 (i 1)) := by
  funext i
  refine shapeCast_apply x h i (ix1 (i 1)) ?_
  rw [Shape.rowMajor_val_one, Shape.rowMajor_val_two]
  have h0 : (i 0).val < 1 := (i 0).isLt
  show (i 1).val = (i 0).val * n + (i 1).val
  have : (i 0).val = 0 := by omega
  rw [this]; omega

end Cert.GinConv

end
-- ==== Proof.KernelEnds.lean ====
/-
  The two ends of the kernel's computation, in terms of the argument arrays.

  At the first region's exit its output array holds the projected node features: the rectified rows of x, slope the one
  entry of w, through W_lin read transposed — the host lays w as a [1, 1] matrix and transposes W_lin before the region.
  At the return the result array holds the perceptron of whatever the aggregated rows are at the last region's entry,
  with W1 and W2 read transposed and b1, b2 read at the column — the host transposes the two matrices and lays the two
  biases as one-row matrices before the region.
-/
import proofs.«417791_j37349035606505_1_alg».proof.Proof.Fold
import proofs.«417791_j37349035606505_1_alg».proof.Proof.Region0
import proofs.«417791_j37349035606505_1_alg».proof.Proof.Region2
import proofs.«417791_j37349035606505_1_alg».proof.Proof.Layouts

set_option maxRecDepth 16384

noncomputable section

namespace Cert.KernelIdeal.Ends

open Cert.KernelIdeal Cert.KernelIdeal.Gen Cert.GinConv
open Idealize.ShloMosaic Idealize.ShloMosaic.TcCoe Idealize.ShloMosaic.ValueIdx Idealize.SL.Sem

variable (m : (ℓ : Loc nD τ sig) → Buf (Elt Ideal) ℓ) (ρ : Dev nD → PrngReg)

/-- The slope laid as a [1, 1] matrix, at its one entry, is the slope. -/
theorem slope_entry (x : FVec Ideal S1 .f32) (h : S1.ShapeCasts S1x1) :
    shapeCast S1x1 x h (ix2 (0 : Fin 1) (0 : Fin 1)) = x (ix1 (0 : Fin 1)) := by
  refine shapeCast_apply x h _ (ix1 (0 : Fin 1)) ?_
  rw [Shape.rowMajor_val_one, Shape.rowMajor_val_two]
  rfl

/-- The first region's output array: the projected node features. -/
theorem features (c : Dev nD) :
    W2 m ρ c (Proc.devRef .tc main_v2)
      = projRows (m ((c : Thread nD τ).loc main_arg1) (ix1 (0 : Fin 1))) (m ((c : Thread nD τ).loc main_arg0))
          (fun i : (Mat 128 128).Idx => m ((c : Thread nD τ).loc main_arg2) (ix2 (i 1) (i 0))) := by
  refine (W2_arr m ρ c 3).trans ?_
  rw [Cert.KernelIdeal.Region0.arr_out (V1 m ρ) c, Cert.KernelIdeal.Fold.V1_v1, Cert.KernelIdeal.Fold.V1_arg0,
    Cert.KernelIdeal.Fold.V1_v0, transpose_swap]
  congr 1
  exact slope_entry _ _

/-- The result array at the return: the perceptron of the aggregated rows found at the last region's entry. -/
theorem result (c : Dev nD) :
    W15 m ρ c (Proc.devRef .tc main_v34)
      = mlpRows (V14 m ρ c main_v29)
          (fun i : (Mat 128 256).Idx => m ((c : Thread nD τ).loc main_arg5) (ix2 (i 1) (i 0)))
          (fun i : (Mat 1 256).Idx => m ((c : Thread nD τ).loc main_arg6) (ix1 (i 1)))
          (fun i : (Mat 256 128).Idx => m ((c : Thread nD τ).loc main_arg7) (ix2 (i 1) (i 0)))
          (fun i : (Mat 1 128).Idx => m ((c : Thread nD τ).loc main_arg8) (ix1 (i 1))) := by
  refine (W15_arr m ρ c 5).trans ?_
  rw [Cert.KernelIdeal.Region2.arr_out (V14 m ρ) c, Cert.KernelIdeal.Fold.V14_v30, Cert.KernelIdeal.Fold.V14_v31,
    Cert.KernelIdeal.Fold.V14_v32, Cert.KernelIdeal.Fold.V14_v33, transpose_swap, transpose_swap]
  congr 1
  · exact reshape_row _ _
  · exact reshape_row _ _

end Cert.KernelIdeal.Ends

end
-- ==== Proof.Region1.lean ====
/-
  What the message kernel leaves in its output array.

  The grid has 208 points; point t works on rows 8192·t … 8192·t + 8191 of the gathered rows and of the two-column array of
  words, with the two embedding tables whole at every point. For every row of its block the body compares the row's first
  word with the numbers 0 … 5 and its second word with 0 … 2, turns the two rows of truth values into rows of zeros and
  ones, multiplies them into the two tables on the matrix unit, and adds the two products to the gathered row. A row of
  zeros and ones against a table is the one-hot sum that selects the table's row, so the block written back is rows
  8192·t … of the array of edge messages. The 208 blocks tile the output array, which therefore ends holding every edge's
  message, whole.
-/
import proofs.«417791_j37349035606505_1_alg».proof.Proof.Gen.KernelIdeal.Frame
import proofs.«417791_j37349035606505_1_alg».proof.Proof.Spec
import proofs.«417791_j37349035606505_1_alg».proof.Proof.LibDotPlain
import Idealize.ShloMosaic.Lib.Pipeline.Value
import Idealize.ShloMosaic.Lib.ValueLayout

set_option maxRecDepth 16384

noncomputable section

open scoped BigOperators

namespace Cert.KernelIdeal.Region1

open Cert.KernelIdeal Cert.KernelIdeal.Gen Cert.GinConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's value at an entry -/

/-- The first column of the word block, cut out and spread over K columns, reads at (p, k) the first word of row p. -/
theorem first_word_spread {K : Nat} (words : IVec S8192x2 32) (hcut : S8192x2.Slices ![0, 0] S8192x1)
    (hsp : S8192x1.Broadcasts ⟨2, ![8192, K]⟩) (p : Fin 8192) (k : Fin K) :
    broadcastTo ⟨2, ![8192, K]⟩ (extractStridedSlice S8192x1 ![0, 0] words hcut) hsp (ix2 p k)
      = words (ix2 p (0 : Fin 2)) := by
  refine (broadcastTo_apply _ hsp (ix2 p k) (ix2 p (0 : Fin 1)) fun ax => ?_).trans ?_
  · match ax with
    | ⟨0, _⟩ => rfl
    | ⟨1, _⟩ => rfl
  · exact slice2_axis1_apply 0 words hcut p (0 : Fin 1) (0 : Fin 2) rfl

/-- The second column likewise reads the second word of row p. -/
theorem second_word_spread {K : Nat} (words : IVec S8192x2 32) (hcut : S8192x2.Slices ![0, 1] S8192x1)
    (hsp : S8192x1.Broadcasts ⟨2, ![8192, K]⟩) (p : Fin 8192) (k : Fin K) :
    broadcastTo ⟨2, ![8192, K]⟩ (extractStridedSlice S8192x1 ![0, 1] words hcut) hsp (ix2 p k)
      = words (ix2 p (1 : Fin 2)) := by
  refine (broadcastTo_apply _ hsp (ix2 p k) (ix2 p (0 : Fin 1)) fun ax => ?_).trans ?_
  · match ax with
    | ⟨0, _⟩ => rfl
    | ⟨1, _⟩ => rfl
  · exact slice2_axis1_apply 1 words hcut p (0 : Fin 1) (1 : Fin 2) rfl

/-- A block whose row p holds one word in every column, compared with the column numbers, made zeros and ones and
    multiplied into a table from the zero accumulator: entry (p, q) is the one-hot sum of that word against column q of
    the table. The product is a plain sum over the table's rows, the roundings on the way in are the identity on the
    extended reals, and the column numbers read their own coordinate. -/
theorem mask_times_table {K : Nat}
    (w : DotDims.WF ⟨2, ![8192, K]⟩ ⟨2, ![K, 128]⟩ ⟨2, ![8192, 128]⟩ [1] [0] [0] [1] [] [])
    (hnum : (⟨2, ![8192, K]⟩ : Shape).Iotas .tc 32 [1]) (hwide : 1 < 32) (hnarrow : FTy.bits .bf16 < FTy.bits .f32)
    (cols : IVec ⟨2, ![8192, K]⟩ 32) (T : FVec Ideal ⟨2, ![K, 128]⟩ .f32) (word : BitVec 32)
    (p : Fin 8192) (q : Fin 128) (hcols : ∀ k : Fin K, cols (ix2 p k) = word) :
    FloatOps.matmul (⟨[1], [0], [0], [1], [], [], w⟩ : DotDims ⟨2, ![8192, K]⟩ ⟨2, ![K, 128]⟩ ⟨2, ![8192, 128]⟩) none
        (truncf .bf16 (sitofp (F := Ideal) .f32 (extui 32 (cmpi .eq cols (iota .tc ⟨2, ![8192, K]⟩ 32 [1] hnum)) hwide)) hnarrow)
        (truncf .bf16 T hnarrow) (constant (F := Ideal) ⟨2, ![8192, 128]⟩ .f32 0x00000000#32) (ix2 p q)
      = oneHotRow word T q := by
  refine (Cert.LibDotPlain.matmul_zero_apply w none _ _ p q).trans ?_
  unfold oneHotRow
  refine Finset.sum_congr rfl fun k _ => ?_
  show FloatOps.sitofp (F := Ideal) .f32
      ((IntOp.cmpi .eq (cols (ix2 p k)) (iota .tc ⟨2, ![8192, K]⟩ 32 [1] hnum (ix2 p k))).setWidth 32) * T (ix2 k q) = _
  rw [hcols k, iota_single_apply]
  rfl

/-- The body's one stored value at (p, q): the gathered entry plus the two one-hot sums of row p's words. -/
theorem pay_apply (words : Vec Ideal S8192x2 .i32) (T1 : Vec Ideal S6x128 .f32) (T2 : Vec Ideal S3x128 .f32)
    (hs : Vec Ideal S8192x128 .f32) (p : Fin 8192) (q : Fin 128) :
    k1_pay1 (F := Ideal) words T1 T2 hs (ix2 p q)
      = hs (ix2 p q) + (oneHotRow (words (ix2 p (0 : Fin 2))) T1 q + oneHotRow (words (ix2 p (1 : Fin 2))) T2 q) := by
  unfold k1_pay1
  dsimp only
  have hw : shapeCast S8192x2 words shapeCasts_S8192x2_S8192x2 = words := shapeCast_self _ _
  have hh : shapeCast S8192x128 hs shapeCasts_S8192x128_S8192x128 = hs := shapeCast_self _ _
  rw [hw, hh]
  have e1 := mask_times_table dot_S8192x6_S6x128_S8192x128_1_0_0_1_n_n_wf iota_S8192x6_d1_w32 natLt_1_32 bitsLt_bf16_f32
    (broadcastTo S8192x6 (extractStridedSlice S8192x1 ![0, 0] words slices_S8192x2_o0_0_S8192x1) broadcasts_S8192x1_S8192x6)
    T1 (words (ix2 p (0 : Fin 2))) p q
    (fun k => first_word_spread words slices_S8192x2_o0_0_S8192x1 broadcasts_S8192x1_S8192x6 p k)
  have e2 := mask_times_table dot_S8192x3_S3x128_S8192x128_1_0_0_1_n_n_wf iota_S8192x3_d1_w32 natLt_1_32 bitsLt_bf16_f32
    (broadcastTo S8192x3 (extractStridedSlice S8192x1 ![0, 1] words slices_S8192x2_o0_1_S8192x1) broadcasts_S8192x1_S8192x3)
    T2 (words (ix2 p (1 : Fin 2))) p q
    (fun k => second_word_spread words slices_S8192x2_o0_1_S8192x1 broadcasts_S8192x1_S8192x3 p k)
  exact congrArg₂ (· + ·) rfl (congrArg₂ (· + ·) e1 e2)

/-- The same value with each block entry it reads named by the array entry it is: over any arrays, with the row of the
    arrays that row p of the block is, and the tables read where the blocks read them. -/
theorem pay_eq_message (words : Vec Ideal S8192x2 .i32) (T1 : Vec Ideal S6x128 .f32) (T2 : Vec Ideal S3x128 .f32)
    (hs : Vec Ideal S8192x128 .f32)
    (Hs : (Mat 1703936 128).Idx → EReal) (W : (Mat 1703936 2).Idx → BitVec 32)
    (A1 : (Mat 6 128).Idx → EReal) (A2 : (Mat 3 128).Idx → EReal)
    (p : Fin 8192) (q : Fin 128) (r : Fin 1703936)
    (h0 : hs (ix2 p q) = Hs (ix2 r q)) (h1 : ∀ col : Fin 2, words (ix2 p col) = W (ix2 r col))
    (h2 : ∀ k : Fin 6, T1 (ix2 k q) = A1 (ix2 k q)) (h3 : ∀ k : Fin 3, T2 (ix2 k q) = A2 (ix2 k q)) :
    k1_pay1 (F := Ideal) words T1 T2 hs (ix2 p q) = combineRows Hs W A1 A2 (ix2 r q) := by
  rw [pay_apply, h0, h1 0, h1 1]
  unfold combineRows oneHotRow
  refine congrArg₂ (· + ·) rfl
    (congrArg₂ (· + ·) (Finset.sum_congr rfl fun k _ => ?_) (Finset.sum_congr rfl fun k _ => ?_))
  · rw [h2 k]
  · rw [h3 k]

/-! ## From the blocks to the array -/

theorem hz : (![0, 0] : Fin 2 → Nat) = fun _ => 0 := funext fun a => by fin_cases a <;> rfl

/-- The printed index maps over the grid: the gathered rows, the words and the output of point t are block t of their
    arrays along the rows; each table is block (0, 0), the whole array, at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The gathered block of point t at (p, q) is the gathered array at row 8192·t + p, column q. -/
theorem read_gathered (c : Dev nD) (t : Fin cfg1.N) (p : Fin 8192) (q : Fin 128) (r : Fin 1703936)
    (hr : r.val = t.val * 8192 + p.val) :
    iblk1 V c 0 t (ix2 p q) = V c main_v22 (ix2 r q) := by
  obtain ⟨e0, e1, -⟩ := idx_facts t
  show V c main_v22 (((cfg1.win 0).blk t).view.emb (ix2 p q)) = _
  refine congrArg (V c main_v22) (funext fun a => Fin.ext ?_)
  match a with
  | ⟨0, _⟩ => show win1_0.index t (0 : Fin 2) * 8192 + 1 * p.val = r.val; omega
  | ⟨1, _⟩ => show win1_0.index t (1 : Fin 2) * 128 + 1 * q.val = q.val; omega

/-- The word block of point t at (p, col) is the word array at row 8192·t + p, column col. -/
theorem read_words (c : Dev nD) (t : Fin cfg1.N) (p : Fin 8192) (col : Fin 2) (r : Fin 1703936)
    (hr : r.val = t.val * 8192 + p.val) :
    iblk1 V c 1 t (ix2 p col) = V c main_v25 (ix2 r col) := by
  obtain ⟨-, -, e2, e3, -⟩ := idx_facts t
  show V c main_v25 (((cfg1.win 1).blk t).view.emb (ix2 p col)) = _
  refine congrArg (V c main_v25) (funext fun a => Fin.ext ?_)
  match a with
  | ⟨0, _⟩ => show win1_1.index t (0 : Fin 2) * 8192 + 1 * p.val = r.val; omega
  | ⟨1, _⟩ => show win1_1.index t (1 : Fin 2) * 2 + 1 * col.val = col.val; omega

/-- The first table's block of any point at (k, q) is the table there. -/
theorem read_table1 (c : Dev nD) (t : Fin cfg1.N) (k : Fin 6) (q : Fin 128) :
    iblk1 V c 2 t (ix2 k q) = V c main_arg3 (ix2 k q) := by
  obtain ⟨-, -, -, -, e4, e5, -⟩ := idx_facts t
  show V c main_arg3 (((cfg1.win 2).blk t).view.emb (ix2 k q)) = _
  refine congrArg (V c main_arg3) (funext fun a => Fin.ext ?_)
  match a with
  | ⟨0, _⟩ => show win1_2.index t (0 : Fin 2) * 6 + 1 * k.val = k.val; omega
  | ⟨1, _⟩ => show win1_2.index t (1 : Fin 2) * 128 + 1 * q.val = q.val; omega

/-- The second table's block of any point at (k, q) is the table there. -/
theorem read_table2 (c : Dev nD) (t : Fin cfg1.N) (k : Fin 3) (q : Fin 128) :
    iblk1 V c 3 t (ix2 k q) = V c main_arg4 (ix2 k q) := by
  obtain ⟨-, -, -, -, -, -, e6, e7, -⟩ := idx_facts t
  show V c main_arg4 (((cfg1.win 3).blk t).view.emb (ix2 k q)) = _
  refine congrArg (V c main_arg4) (funext fun a => Fin.ext ?_)
  match a with
  | ⟨0, _⟩ => show win1_3.index t (0 : Fin 2) * 3 + 1 * k.val = k.val; omega
  | ⟨1, _⟩ => show win1_3.index t (1 : Fin 2) * 128 + 1 * q.val = q.val; omega

/-- What point t writes back is block t of the array of edge messages. -/
theorem flushed_eq (c : Dev nD) (t : Fin cfg1.N) :
    (dat1 (F := Ideal) V c).flushed 4 t
      = ((cfg1.win 4).blk t).view.read (Elt Ideal)
          (combineRows (V c main_v22) (V c main_v25) (V c main_arg3) (V c main_arg4)) := by
  show (cfg1.win 4).cut (grid1.coords t) ((dat1 V c).after 4 t) = _
  rw [after1_4]
  unfold out1_4
  rw [View.canon_unit_zero hz]
  simp only [View.ld_unit_zero (S := S8192x128) hz, View.ld_unit_zero (S := S8192x2) hz,
    View.ld_unit_zero (S := S6x128) hz, View.ld_unit_zero (S := S3x128) hz]
  obtain ⟨-, -, -, -, -, -, -, -, e8, e9⟩ := idx_facts t
  funext j
  obtain ⟨p, q, rfl⟩ : ∃ (p : Fin 8192) (q : Fin 128), j = ix2 p q := ⟨j 0, j 1, eq_ix2 j⟩
  have ht : t.val < 208 := by
    have h := t.isLt
    have e : cfg1.N = 208 := N_1
    omega
  have hrow : t.val * 8192 + p.val < 1703936 := by have := p.isLt; omega
  have hemb : ((cfg1.win 4).blk t).view.emb (ix2 p q) = ix2 (⟨t.val * 8192 + p.val, hrow⟩ : Fin 1703936) q := by
    funext a; apply Fin.ext
    match a with
    | ⟨0, _⟩ => show win1_4.index t (0 : Fin 2) * 8192 + 1 * p.val = t.val * 8192 + p.val; omega
    | ⟨1, _⟩ => show win1_4.index t (1 : Fin 2) * 128 + 1 * q.val = q.val; omega
  show _ = combineRows _ _ _ _ (((cfg1.win 4).blk t).view.emb (ix2 p q))
  rw [hemb]
  exact pay_eq_message _ _ _ _ (V c main_v22) (V c main_v25) (V c main_arg3) (V c main_arg4) p q ⟨t.val * 8192 + p.val, hrow⟩
    (read_gathered V c t p q _ rfl) (fun col => read_words V c t p col _ rfl)
    (fun k => read_table1 V c t k q) (fun k => read_table2 V c t k q)

/-- An index of the output array is in point t's block iff each coordinate is in the block's range on its axis. -/
theorem mem_blk (t : Fin cfg1.N) (i : S1703936x128.Idx) :
    i ∈ ((cfg1.win 4).blk t).view.set
      ↔ ∀ a : Fin 2, win1_4.index t a * S8192x128.size a ≤ (i a).val
          ∧ (i a).val < win1_4.index t a * S8192x128.size a + S8192x128.size a := by
  show i ∈ ((View.whole main_v26).slice (win1_4.rect t)).set ↔ _
  rw [View.set_slice_whole, Rect.mem_set_unit]
  exact Iff.rfl

/-- Every entry of the output array lies in the block of the point its row falls to: row r in block r / 8192. -/
theorem cover (i : S1703936x128.Idx) :
    ∃ t : Fin cfg1.N, (cfg1.win 4).flush t = true ∧ i ∈ ((cfg1.win 4).blk t).view.set := by
  have hi0 : (i 0).val < 1703936 := (i 0).isLt
  have hi1 : (i 1).val < 128 := (i 1).isLt
  have hN : (i 0).val / 8192 < cfg1.N := by show _ < grid1.N; rw [N_1]; omega
  refine ⟨⟨(i 0).val / 8192, hN⟩, flush1_4 _, ?_⟩
  rw [mem_blk]
  obtain ⟨-, -, -, -, -, -, -, -, e8, e9⟩ := idx_facts ⟨(i 0).val / 8192, hN⟩
  intro a
  match a with
  | ⟨0, _⟩ =>
    show win1_4.index ⟨(i 0).val / 8192, hN⟩ (0 : Fin 2) * 8192 ≤ (i 0).val
      ∧ (i 0).val < win1_4.index ⟨(i 0).val / 8192, hN⟩ (0 : Fin 2) * 8192 + 8192
    rw [e8]; show (i 0).val / 8192 * 8192 ≤ (i 0).val ∧ (i 0).val < (i 0).val / 8192 * 8192 + 8192; omega
  | ⟨1, _⟩ =>
    show win1_4.index ⟨(i 0).val / 8192, hN⟩ (1 : Fin 2) * 128 ≤ (i 1).val
      ∧ (i 1).val < win1_4.index ⟨(i 0).val / 8192, hN⟩ (1 : Fin 2) * 128 + 128
    rw [e9]; omega

/-- After all 208 grid points the output array holds every edge's message, whole. -/
theorem arr_out (c : Dev nD) :
    (dat1 (F := Ideal) V c).arrAt 4 cfg1.N
      = combineRows (V c main_v22) (V c main_v25) (V c main_arg3) (V c main_arg4) :=
  (dat1 (F := Ideal) V c).arrAt_eq_of_cover 4 _ (fun t _ => flushed_eq V c t) cover

end Cert.KernelIdeal.Region1

end
-- ==== Proof.RefDense.lean ====
/-
  The reference's two dense stages as whole-array functions.

  The reference projects the node features the same way the kernel does — a leaky rectifier with one slope, then the
  product with the transposed weight matrix — and ends with the same two-layer perceptron on the aggregated rows: a
  product with W1 transposed plus b1 along the rows, a rectifier, a product with W2 transposed plus b2 along the rows.
  Read entry by entry, each product of the host is a plain sum over the contracted coordinate on the extended reals, each
  transposed matrix is the matrix read at the swapped index, and each bias laid along the rows is the bias at the column.
-/
import proofs.«417791_j37349035606505_1_alg».proof.Proof.Gen.ReferenceIdeal.Read
import proofs.«417791_j37349035606505_1_alg».proof.Proof.Spec
import Idealize.ShloMosaic.Lib.Pipeline.Value
import Idealize.ShloMosaic.Lib.ValueLayout

noncomputable section

open scoped BigOperators

namespace Cert.ReferenceIdeal.Dense

open Cert.ReferenceIdeal Cert.ReferenceIdeal.Gen Cert.ReferenceIdeal.Read Cert.GinConv
open Idealize.ShloMosaic Idealize.ShloMosaic.ValueIdx

variable [Cert.ReferenceIdeal.Facts]

/-- The projected node features: the rectified rows of x, slope the one entry of w, through W_lin read transposed. -/
theorem proj_eq (x0 : FVec Ideal S100000x128 .f32) (x1 : FVec Ideal S1 .f32) (x2 : FVec Ideal S128x128 .f32) :
    val_main_v7 (F := Ideal) x0 x1 x2
      = projRows (x1 (ix1 (0 : Fin 1))) x0 (fun i : (Mat 128 128).Idx => x2 (ix2 (i 1) (i 0))) := by
  funext i
  obtain ⟨r, o, rfl⟩ : ∃ (r : Fin 100000) (o : Fin 128), i = ix2 r o := ⟨i 0, i 1, eq_ix2 i⟩
  rw [val_main_v7_apply]
  unfold projRows
  refine Finset.sum_congr rfl fun k _ => ?_
  have el : lidx_main_v7 (ix2 r o) k = ix2 r k :=
    funext fun a => Fin.ext (by match a with | ⟨0, _⟩ => rfl | ⟨1, _⟩ => rfl)
  have er : idx_main_v6 (ridx_main_v7 (ix2 r o) k) = ix2 o k :=
    funext fun a => Fin.ext (by match a with | ⟨0, _⟩ => rfl | ⟨1, _⟩ => rfl)
  have es : idx_main_v2 (idx_main_v3 (ix2 r k)) = ix1 (0 : Fin 1) :=
    funext fun a => Fin.ext (by match a with | ⟨0, _⟩ => rfl)
  rw [el, val_main_v5_apply, val_main_v1_apply, val_main_v0_apply, val_main_cst_apply, val_main_v4_apply,
    val_main_v3_apply, val_main_v2_apply, es, val_main_v6_apply, er]
  rfl

/-- The result: the perceptron of the aggregated rows, W1 and W2 read transposed, b1 and b2 read at the column. -/
theorem result_eq (x0 : FVec Ideal S100000x128 .f32) (x1 : FVec Ideal S1 .f32) (x2 : FVec Ideal S128x128 .f32) (x3 : FVec Ideal S6x128 .f32)
    (x4 : FVec Ideal S3x128 .f32) (x5 : FVec Ideal S256x128 .f32) (x6 : FVec Ideal S256 .f32) (x7 : FVec Ideal S128x256 .f32)
    (x8 : FVec Ideal S128 .f32) (x9 : IVec S2x1600000 32) (x10 : IVec S1600000x2 32) :
    val_main_v59 (F := Ideal) x0 x1 x2 x3 x4 x5 x6 x7 x8 x9 x10
      = mlpRows (val_main_v48 (F := Ideal) x0 x1 x2 x3 x4 x9 x10)
          (fun i : (Mat 128 256).Idx => x5 (ix2 (i 1) (i 0))) (fun i : (Mat 1 256).Idx => x6 (ix1 (i 1)))
          (fun i : (Mat 256 128).Idx => x7 (ix2 (i 1) (i 0))) (fun i : (Mat 1 128).Idx => x8 (ix1 (i 1))) := by
  funext i
  obtain ⟨r, o, rfl⟩ : ∃ (r : Fin 100000) (o : Fin 128), i = ix2 r o := ⟨i 0, i 1, eq_ix2 i⟩
  have eb2 : idx_main_v57 (idx_main_v58 (ix2 r o)) = ix1 o :=
    funext fun a => Fin.ext (by match a with | ⟨0, _⟩ => rfl)
  rw [val_main_v59_apply, val_main_v56_apply, val_main_v58_apply, val_main_v57_apply, eb2, Ideal.addf_def]
  unfold mlpRows
  refine congrArg₂ (fun a b : EReal => a + b) (Finset.sum_congr rfl fun j _ => ?_) rfl
  have el2 : lidx_main_v56 (ix2 r o) j = ix2 r j :=
    funext fun a => Fin.ext (by match a with | ⟨0, _⟩ => rfl | ⟨1, _⟩ => rfl)
  have er2 : idx_main_v55 (ridx_main_v56 (ix2 r o) j) = ix2 o j :=
    funext fun a => Fin.ext (by match a with | ⟨0, _⟩ => rfl | ⟨1, _⟩ => rfl)
  have eb1 : idx_main_v51 (idx_main_v52 (ix2 r j)) = ix1 j :=
    funext fun a => Fin.ext (by match a with | ⟨0, _⟩ => rfl)
  rw [el2, val_main_v55_apply, er2, val_main_v54_apply, val_main_v53_apply, val_main_v50_apply, val_main_v52_apply,
    val_main_v51_apply, eb1, val_main_call1_v0_apply, val_main_call1_cst_apply, Ideal.maximumf_def, Ideal.addf_def,
    Ideal.ofBits_def]
  unfold Cert.GinConv.hidden
  refine congrArg₂ (fun a b : EReal => a * b)
    (congrArg₂ (fun a b : EReal => max a b)
      (congrArg₂ (fun a b : EReal => a + b) (Finset.sum_congr rfl fun k _ => ?_) rfl) rfl) rfl
  have el1 : lidx_main_v50 (ix2 r j) k = ix2 r k :=
    funext fun a => Fin.ext (by match a with | ⟨0, _⟩ => rfl | ⟨1, _⟩ => rfl)
  have er1 : idx_main_v49 (ridx_main_v50 (ix2 r j) k) = ix2 j k :=
    funext fun a => Fin.ext (by match a with | ⟨0, _⟩ => rfl | ⟨1, _⟩ => rfl)
  rw [el1, val_main_v49_apply, er1]

end Cert.ReferenceIdeal.Dense

end
-- ==== Proof.RefRows.lean ====
/-
  The reference's edge list, row by row.

  The reference appends one self-loop per node to the edge list: rows 0 … 1599999 are the given edges, row 1600000 + v is
  the loop at node v. So each of its four index vectors — source node, destination node, bond type, bond direction — is
  the given entry on an edge row and, on a loop row, the node's own number (source and destination), the constant 4
  (bond type) or the constant 0 (bond direction). Before a table is read at such a word the word is wrapped once: a
  negative word gains the table's length.
-/
import proofs.«417791_j37349035606505_1_alg».proof.Proof.Gen.ReferenceIdeal.Read
import Idealize.ShloMosaic.Lib.Pipeline.Value

noncomputable section

namespace Cert.ReferenceIdeal.Rows

open Cert.ReferenceIdeal Cert.ReferenceIdeal.Gen Cert.ReferenceIdeal.Read
open Idealize.ShloMosaic Idealize.ShloMosaic.ValueIdx

variable [Cert.ReferenceIdeal.Facts]

/-- A word wrapped once: a negative word gains n, any other word stays. -/
def wrapWord (n w : BitVec 32) : BitVec 32 := Scalar.select (IntOp.cmpi .slt w 0#32) (IntOp.addi w n) w

variable (x9 : IVec S2x1600000 32) (x10 : IVec S1600000x2 32)

/-! ## The four words of a row -/

/-- The source node of an edge row: the given entry. -/
theorem src_edge (p : Fin 1700000) (h : p.val < 1600000) :
    val_main_v11 (F := Ideal) x9 (ix1 p) = x9 (ix2 (0 : Fin 2) (⟨p.val, h⟩ : Fin 1600000)) := by
  unfold val_main_v11
  rw [concatenate_pair_apply_left (t := S1700000) (s₁ := S1600000) (s₂ := S100000) (0 : Fin 1) (val_main_v10 (F := Ideal) x9) (val_main_v8 (F := Ideal)) concatenates_S1600000_S100000_S1700000_d0 (ix1 p) rfl
    (ix1 (⟨p.val, h⟩ : Fin 1600000)) (fun b => by match b with | ⟨0, _⟩ => rfl)]
  rw [val_main_v10_apply, val_main_v9_apply]
  refine congrArg x9 (funext fun a => Fin.ext ?_)
  match a with
  | ⟨0, _⟩ => rfl
  | ⟨1, _⟩ => show p.val % 1600000 = p.val; omega

/-- The source node of a loop row: the node's own number. -/
theorem src_loop (p : Fin 1700000) (h : 1600000 ≤ p.val) :
    val_main_v11 (F := Ideal) x9 (ix1 p) = BitVec.ofNat 32 (p.val - 1600000) := by
  unfold val_main_v11
  have hp := p.isLt
  rw [concatenate_pair_apply_right (t := S1700000) (s₁ := S1600000) (s₂ := S100000) (0 : Fin 1) (val_main_v10 (F := Ideal) x9) (val_main_v8 (F := Ideal)) concatenates_S1600000_S100000_S1700000_d0 (ix1 p) rfl rfl
    (ix1 (⟨p.val - 1600000, by omega⟩ : Fin 100000)) (fun b hb => by match b with | ⟨0, _⟩ => exact absurd rfl hb)
    (by show p.val - 1600000 + 1600000 = p.val; omega)]
  rfl

/-- The destination node of an edge row: the given entry. -/
theorem dst_edge (p : Fin 1700000) (h : p.val < 1600000) :
    val_main_v14 (F := Ideal) x9 (ix1 p) = x9 (ix2 (1 : Fin 2) (⟨p.val, h⟩ : Fin 1600000)) := by
  unfold val_main_v14
  rw [concatenate_pair_apply_left (t := S1700000) (s₁ := S1600000) (s₂ := S100000) (0 : Fin 1) (val_main_v13 (F := Ideal) x9) (val_main_v8 (F := Ideal)) concatenates_S1600000_S100000_S1700000_d0 (ix1 p) rfl
    (ix1 (⟨p.val, h⟩ : Fin 1600000)) (fun b => by match b with | ⟨0, _⟩ => rfl)]
  rw [val_main_v13_apply, val_main_v12_apply]
  refine congrArg x9 (funext fun a => Fin.ext ?_)
  match a with
  | ⟨0, _⟩ => rfl
  | ⟨1, _⟩ => show p.val % 1600000 = p.val; omega

/-- The destination node of a loop row: the node's own number. -/
theorem dst_loop (p : Fin 1700000) (h : 1600000 ≤ p.val) :
    val_main_v14 (F := Ideal) x9 (ix1 p) = BitVec.ofNat 32 (p.val - 1600000) := by
  unfold val_main_v14
  have hp := p.isLt
  rw [concatenate_pair_apply_right (t := S1700000) (s₁ := S1600000) (s₂ := S100000) (0 : Fin 1) (val_main_v13 (F := Ideal) x9) (val_main_v8 (F := Ideal)) concatenates_S1600000_S100000_S1700000_d0 (ix1 p) rfl rfl
    (ix1 (⟨p.val - 1600000, by omega⟩ : Fin 100000)) (fun b hb => by match b with | ⟨0, _⟩ => exact absurd rfl hb)
    (by show p.val - 1600000 + 1600000 = p.val; omega)]
  rfl

/-- The bond type of an edge row: the given entry. -/
theorem type_edge (p : Fin 1700000) (h : p.val < 1600000) :
    val_main_v18 (F := Ideal) x10 (ix1 p) = x10 (ix2 (⟨p.val, h⟩ : Fin 1600000) (0 : Fin 2)) := by
  unfold val_main_v18
  rw [concatenate_pair_apply_left (t := S1700000) (s₁ := S1600000) (s₂ := S100000) (0 : Fin 1) (val_main_v16 (F := Ideal) x10) (val_main_v17 (F := Ideal)) concatenates_S1600000_S100000_S1700000_d0 (ix1 p) rfl
    (ix1 (⟨p.val, h⟩ : Fin 1600000)) (fun b => by match b with | ⟨0, _⟩ => rfl)]
  rw [val_main_v16_apply, val_main_v15_apply]
  refine congrArg x10 (funext fun a => Fin.ext ?_)
  match a with
  | ⟨0, _⟩ => show p.val / 1 = p.val; omega
  | ⟨1, _⟩ => rfl

/-- The bond type of a loop row: 4. -/
theorem type_loop (p : Fin 1700000) (h : 1600000 ≤ p.val) :
    val_main_v18 (F := Ideal) x10 (ix1 p) = 4#32 := by
  unfold val_main_v18
  have hp := p.isLt
  rw [concatenate_pair_apply_right (t := S1700000) (s₁ := S1600000) (s₂ := S100000) (0 : Fin 1) (val_main_v16 (F := Ideal) x10) (val_main_v17 (F := Ideal)) concatenates_S1600000_S100000_S1700000_d0 (ix1 p) rfl rfl
    (ix1 (⟨p.val - 1600000, by omega⟩ : Fin 100000)) (fun b hb => by match b with | ⟨0, _⟩ => exact absurd rfl hb)
    (by show p.val - 1600000 + 1600000 = p.val; omega)]
  rw [val_main_v17_apply]
  rfl

/-- The bond direction of an edge row: the given entry. -/
theorem dir_edge (p : Fin 1700000) (h : p.val < 1600000) :
    val_main_v22 (F := Ideal) x10 (ix1 p) = x10 (ix2 (⟨p.val, h⟩ : Fin 1600000) (1 : Fin 2)) := by
  unfold val_main_v22
  rw [concatenate_pair_apply_left (t := S1700000) (s₁ := S1600000) (s₂ := S100000) (0 : Fin 1) (val_main_v20 (F := Ideal) x10) (val_main_v21 (F := Ideal)) concatenates_S1600000_S100000_S1700000_d0 (ix1 p) rfl
    (ix1 (⟨p.val, h⟩ : Fin 1600000)) (fun b => by match b with | ⟨0, _⟩ => rfl)]
  rw [val_main_v20_apply, val_main_v19_apply]
  refine congrArg x10 (funext fun a => Fin.ext ?_)
  match a with
  | ⟨0, _⟩ => show p.val / 1 = p.val; omega
  | ⟨1, _⟩ => rfl

/-- The bond direction of a loop row: 0. -/
theorem dir_loop (p : Fin 1700000) (h : 1600000 ≤ p.val) :
    val_main_v22 (F := Ideal) x10 (ix1 p) = 0#32 := by
  unfold val_main_v22
  have hp := p.isLt
  rw [concatenate_pair_apply_right (t := S1700000) (s₁ := S1600000) (s₂ := S100000) (0 : Fin 1) (val_main_v20 (F := Ideal) x10) (val_main_v21 (F := Ideal)) concatenates_S1600000_S100000_S1700000_d0 (ix1 p) rfl rfl
    (ix1 (⟨p.val - 1600000, by omega⟩ : Fin 100000)) (fun b hb => by match b with | ⟨0, _⟩ => exact absurd rfl hb)
    (by show p.val - 1600000 + 1600000 = p.val; omega)]
  rw [val_main_v21_apply]
  rfl

/-! ## The index columns the tables are read at -/

/-- The node table is read at the source word wrapped once by 100000. -/
theorem src_col (p : Fin 1700000) :
    val_main_v43 (F := Ideal) x9 (ix2 p (0 : Fin 1)) = wrapWord 100000#32 (val_main_v11 (F := Ideal) x9 (ix1 p)) := by
  rw [val_main_v43_apply]
  have e : idx_main_v43 (ix2 p (0 : Fin 1)) = ix1 p := funext fun a => by match a with | ⟨0, _⟩ => rfl
  rw [e, val_main_v42_apply, val_main_v39_apply, val_main_v41_apply, val_main_v38_apply, val_main_v40_apply]
  rfl

/-- The bond-type table is read at the type word wrapped once by 6. -/
theorem type_col (p : Fin 1700000) :
    val_main_v28 (F := Ideal) x10 (ix2 p (0 : Fin 1)) = wrapWord 6#32 (val_main_v18 (F := Ideal) x10 (ix1 p)) := by
  rw [val_main_v28_apply]
  have e : idx_main_v28 (ix2 p (0 : Fin 1)) = ix1 p := funext fun a => by match a with | ⟨0, _⟩ => rfl
  rw [e, val_main_v27_apply, val_main_v24_apply, val_main_v26_apply, val_main_v23_apply, val_main_v25_apply]
  rfl

/-- The bond-direction table is read at the direction word wrapped once by 3. -/
theorem dir_col (p : Fin 1700000) :
    val_main_v35 (F := Ideal) x10 (ix2 p (0 : Fin 1)) = wrapWord 3#32 (val_main_v22 (F := Ideal) x10 (ix1 p)) := by
  rw [val_main_v35_apply]
  have e : idx_main_v35 (ix2 p (0 : Fin 1)) = ix1 p := funext fun a => by match a with | ⟨0, _⟩ => rfl
  rw [e, val_main_v34_apply, val_main_v31_apply, val_main_v33_apply, val_main_v30_apply, val_main_v32_apply]
  rfl

/-- The scatter's index column is the destination word itself. -/
theorem dst_col (p : Fin 1700000) :
    val_main_v47 (F := Ideal) x9 (ix2 p (0 : Fin 1)) = val_main_v14 (F := Ideal) x9 (ix1 p) := by
  rw [val_main_v47_apply]
  have e : idx_main_v47 (ix2 p (0 : Fin 1)) = ix1 p := funext fun a => by match a with | ⟨0, _⟩ => rfl
  rw [e]

end Cert.ReferenceIdeal.Rows

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.GatherRow.lean ====
/-
  A gather of rows at a word that is a row number reads that row.

  The gather reads its start index as a signed integer and clamps it into the operand's rows. Where the word already is a
  row number the clamp does nothing, so the gathered row is the operand's row of that number.
-/
import proofs.«417791_j37349035606505_1_alg».proof.Proof.LibTakeRows

noncomputable section

namespace Cert.GinConv

open Idealize.ShloMosaic Idealize.ShloMosaic.ValueIdx

/-- Entry (p, q) of a gather of rows whose start index p is the row number r: the operand at (r, q). The five equations
    are the printed dimension numbers. -/
theorem gather_row {α : Type} {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![R, C]⟩ : Shape).Idx → α) (col : IVec ⟨2, ![M, 1]⟩ 32) (p : Fin M) (q : Fin C)
    (r : Fin R) (hr : (col (ix2 p (0 : Fin 1))).toInt = (r.val : Int)) :
    Host.gather d x col (ix2 p q) = x (ix2 r q) := by
  have hR : 0 < R := Nat.lt_of_le_of_lt (Nat.zero_le _) r.isLt
  rw [Cert.TakeRows.take_rows_apply d hoff hcoll hob hsim hivd hR x col p q]
  refine congrArg x (congrArg (fun a : Fin R => ix2 a q) (Fin.ext ?_))
  show min (col (ix2 p (0 : Fin 1))).toInt.toNat (R - 1) = r.val
  rw [hr, Int.toNat_natCast]
  have := r.isLt
  omega

end Cert.GinConv

end
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.LibTakeFill.lean ====
/-
  A take of rows in fill mode is the plain gather when every index is a row number.

  jnp.take(x, idx, axis=0) on an [N, C] table, in its default mode, lowers to: wrap a negative index once (idx + N where
  idx < 0); gather the rows at the wrapped indices (the gather clamps its start index into [0, N - 1]); and replace by a
  fill value every row whose wrapped index lies outside [0, N - 1], the test being taken per index, reduced with "and"
  over the unit axis of the [M, 1] index column, and laid along the row. When every index already lies in [0, N), the
  wrap does nothing, the test holds for every row, and the whole expression is the gather at the wrapped indices.
  Stated with the lowering's own operations and its shape facts as variables, so it applies to a program's own text.
-/
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import proofs.«417791_j37349035606505_1_alg».proof.Proof.LibUnitAxis

noncomputable section

namespace Cert.LibTakeFill

open Idealize.ShloMosaic Idealize.ShloMosaic.ValueIdx

variable {N C M : ℕ}

abbrev S0 : Shape := ⟨0, ![]⟩
abbrev S1 : Shape := ⟨1, ![1]⟩
abbrev S11 : Shape := ⟨2, ![1, 1]⟩

/-- The wrapped index column: idx + n where idx < 0, else idx, laid as an [M, 1] column. (nWord is N as a 32-bit word.) -/
def wrapCol (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) : IVec ⟨2, ![M, 1]⟩ 32 :=
  broadcastInDim ⟨2, ![M, 1]⟩ ![0] bcol
    (select (cmpi .slt idx (broadcastInDim ⟨1, ![M]⟩ ![] b0 (constantI S0 32 0#32)))
      (addi idx (broadcastInDim ⟨1, ![M]⟩ ![] b0 (constantI S0 32 nWord))) idx)

/-- The in-range test of an index column, per row, laid along the C columns: 0 ≤ w ≤ maxWord, "and"-reduced over the unit axis. -/
def inRangeMask (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32) : IVec ⟨2, ![M, C]⟩ 1 :=
  broadcastInDim ⟨2, ![M, C]⟩ ![0] bc
    (Host.reduce IntOp.andi
      (andi (cmpi .sge w (broadcastInDim ⟨2, ![M, 1]⟩ ![] b01 (constantI S0 32 0#32)))
            (cmpi .sle w (broadcastInDim ⟨2, ![M, 1]⟩ ![0, 1] b11 (broadcastInDim S11 ![1] b1 (constantI S1 32 maxWord)))))
      (constantI S0 1 1#1) rt h0)

/-- A constant array broadcast into any shape reads the constant everywhere. -/
theorem bcast_const {s t : Shape} (dims : Fin s.rank → Fin t.rank) (h : s.BroadcastsInDim t dims) {w : ℕ} (b : BitVec w)
    (j : t.Idx) : broadcastInDim t dims h (constantI s w b) j = b := rfl

/-- A word that is non-negative as a signed number is not below zero. -/
theorem cmpi_slt_zero_of_nonneg (a : BitVec 32) (h : 0 ≤ a.toInt) : IntOp.cmpi .slt a 0#32 = 0#1 := by
  have h0 : (0#32 : BitVec 32).toInt = 0 := by decide
  have hs : a.slt 0#32 = false := by
    simp only [BitVec.slt, h0, decide_eq_false_iff_not]; omega
  show BitVec.ofBool (a.slt 0#32) = 0#1
  rw [hs]; rfl

/-- A word that is non-negative as a signed number is at least zero. -/
theorem cmpi_sge_zero_of_nonneg (a : BitVec 32) (h : 0 ≤ a.toInt) : IntOp.cmpi .sge a 0#32 = 1#1 := by
  have h0 : (0#32 : BitVec 32).toInt = 0 := by decide
  have hs : (0#32 : BitVec 32).sle a = true := by
    simp only [BitVec.sle, h0, decide_eq_true_eq]; exact h
  show BitVec.ofBool ((0#32 : BitVec 32).sle a) = 1#1
  rw [hs]; rfl

/-- A signed comparison that holds of the values holds of the words. -/
theorem cmpi_sle_of_le (a b : BitVec 32) (h : a.toInt ≤ b.toInt) : IntOp.cmpi .sle a b = 1#1 := by
  have hs : a.sle b = true := by
    simp only [BitVec.sle, decide_eq_true_eq]; exact h
  show BitVec.ofBool (a.sle b) = 1#1
  rw [hs]; rfl

/-- Where every index is a row number, the wrapped index is the index itself. -/
theorem wrapCol_apply (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) (hp : 0 ≤ (idx (ix1 p)).toInt) :
    wrapCol nWord b0 bcol idx (ix2 p (0 : Fin 1)) = idx (ix1 p) := by
  unfold wrapCol
  rw [LibUnitAxis.bcast_col_apply, select_apply]
  have hc : cmpi .slt idx (broadcastInDim ⟨1, ![M]⟩ ![] b0 (constantI S0 32 0#32)) (ix1 p) = 0#1 :=
    cmpi_slt_zero_of_nonneg (idx (ix1 p)) hp
  rw [hc, select_zero]

/-- Where every wrapped index lies in [0, maxWord], the mask is all ones. -/
theorem inRangeMask_eq_ones (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32)
    (hw : ∀ p : Fin M, 0 ≤ (w (ix2 p (0 : Fin 1))).toInt ∧ (w (ix2 p (0 : Fin 1))).toInt ≤ maxWord.toInt) :
    inRangeMask (C := C) maxWord b01 b1 b11 rt h0 bc w = fun _ => 1#1 := by
  funext j
  obtain ⟨p, q, rfl⟩ : ∃ (p : Fin M) (q : Fin C), j = ix2 p q := ⟨j 0, j 1, eq_ix2 j⟩
  unfold inRangeMask
  rw [LibUnitAxis.bcast_cols_apply,
    LibUnitAxis.reduce_andi_unit_apply _ (constantI S0 1 1#1) rt h0 (fun _ => rfl) p]
  show IntOp.andi (IntOp.cmpi .sge (w (ix2 p (0 : Fin 1))) 0#32) (IntOp.cmpi .sle (w (ix2 p (0 : Fin 1))) maxWord) = 1#1
  rw [cmpi_sge_zero_of_nonneg _ (hw p).1, cmpi_sle_of_le _ _ (hw p).2]
  rfl

/-- The take in fill mode: where every index lies in [0, maxWord] the filled select is its first branch, whatever the
    gathered array g and the fill f are. -/
theorem take_fill_eq {α : Type} (nWord maxWord : BitVec 32)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, 0 ≤ (idx (ix1 p)).toInt ∧ (idx (ix1 p)).toInt ≤ maxWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_apply nWord b0 bcol idx p (hidx p).1]; exact hidx p
  rw [inRangeMask_eq_ones maxWord b01 b1 b11 rt h0 bc _ hw]
  funext j
  exact select_one (g j) (f j)

end Cert.LibTakeFill

end
-- ==== Proof.LibTakeWrap.lean ====
/-
  A take of rows in fill mode whose indices may be negative.

  jnp.take wraps a negative index once (idx + N where idx < 0) before it tests the range [0, N - 1] and fills the rows
  that fail the test. An index in [-N, N), read as a signed 32-bit integer, wraps into [0, N - 1]: a negative one gains N
  and N is far from the word's end, so the sum does not overflow; a non-negative one is left alone. So where every index
  lies in [-N, N) no row is filled, and the take is the plain gather at the wrapped indices.
-/
import proofs.«417791_j37349035606505_1_alg».proof.Proof.LibTakeFill
import Idealize.ShloMosaic.Lib.Affine

noncomputable section

namespace Cert.LibTakeWrap

open Idealize.ShloMosaic Idealize.ShloMosaic.ValueIdx Cert.LibTakeFill

variable {C M : ℕ}

/-- A signed word in [-n, n), n at most 2^30, wrapped once lies in [0, n - 1]. -/
theorem wrap_word_range (a nWord : BitVec 32) (hn1 : nWord.toInt ≤ 2 ^ 30)
    (hlo : -nWord.toInt ≤ a.toInt) (hhi : a.toInt < nWord.toInt) :
    0 ≤ (Scalar.select (IntOp.cmpi .slt a 0#32) (IntOp.addi a nWord) a).toInt
      ∧ (Scalar.select (IntOp.cmpi .slt a 0#32) (IntOp.addi a nWord) a).toInt ≤ nWord.toInt - 1 := by
  have h0 : (0#32 : BitVec 32).toInt = 0 := by decide
  by_cases hneg : a.toInt < 0
  · have hc : IntOp.cmpi .slt a 0#32 = 1#1 := IntOp.cmpi_slt.2 (by rw [h0]; exact hneg)
    rw [hc, select_one]
    have hadd : (IntOp.addi a nWord).toInt = a.toInt + nWord.toInt := by
      show (a + nWord).toInt = _
      rw [BitVec.toInt_add, Int.bmod_def]
      have e : ((2 : Nat) ^ 32) = 4294967296 := by norm_num
      have e30 : ((2 : Int) ^ 30) = 1073741824 := by norm_num
      rw [e30] at hn1
      rw [e]
      split <;> omega
    rw [hadd]
    have e30 : ((2 : Int) ^ 30) = 1073741824 := by norm_num
    rw [e30] at hn1
    constructor <;> omega
  · have hc : IntOp.cmpi .slt a 0#32 = 0#1 := cmpi_slt_zero_of_nonneg a (by omega)
    rw [hc, select_zero]
    constructor <;> omega

/-- The wrapped index column at row p: the index plus n where it is negative, the index itself otherwise. -/
theorem wrapCol_eq (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) :
    wrapCol nWord b0 bcol idx (ix2 p (0 : Fin 1))
      = Scalar.select (IntOp.cmpi .slt (idx (ix1 p)) 0#32) (IntOp.addi (idx (ix1 p)) nWord) (idx (ix1 p)) := by
  unfold wrapCol
  rw [LibUnitAxis.bcast_col_apply, select_apply]
  rfl

/-- THE TAKE IN FILL MODE, INDICES IN [-N, N): the filled select is its gathered branch, whatever the gathered array g
    and the fill f are. (nWord is N as a word, maxWord is N - 1.) -/
theorem take_fill_eq_of_signed {α : Type} (nWord maxWord : BitVec 32) (hn1 : nWord.toInt ≤ 2 ^ 30)
    (hmax : maxWord.toInt = nWord.toInt - 1)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, -nWord.toInt ≤ (idx (ix1 p)).toInt ∧ (idx (ix1 p)).toInt < nWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_eq nWord b0 bcol idx p, hmax]
    exact wrap_word_range _ nWord hn1 (hidx p).1 (hidx p).2
  rw [inRangeMask_eq_ones maxWord b01 b1 b11 rt h0 bc _ hw]
  funext j
  exact select_one (g j) (f j)

end Cert.LibTakeWrap

end
-- ==== Proof.RefMessage.lean ====
/-
  The reference's message on a row, read as three table entries.

  Under the precondition every given source node lies in [-100000, 100000), every given bond type in [0, 6) and every bond
  direction in [0, 3). A loop row's words are the node's own number, 4 and 0, which lie in the same ranges. So on every
  row the source word wrapped once is a node number, and the type and direction words are row numbers of their tables as
  they stand (wrapping a non-negative word does nothing). Each gather then reads its table at exactly that row: the clamp
  is idle. The message at (p, o) is the projected features of the source node plus the two embedding entries.
-/
import proofs.«417791_j37349035606505_1_alg».proof.Proof.RefRows
import proofs.«417791_j37349035606505_1_alg».proof.Proof.GatherRow
import proofs.«417791_j37349035606505_1_alg».proof.Proof.LibTakeWrap

noncomputable section

namespace Cert.ReferenceIdeal.Rows

open Cert.ReferenceIdeal Cert.ReferenceIdeal.Gen Cert.ReferenceIdeal.Read Cert.GinConv
open Idealize.ShloMosaic Idealize.ShloMosaic.ValueIdx

variable [Cert.ReferenceIdeal.Facts]

/-- A number below 2^31, as a 32-bit word read signed, is itself. -/
theorem toInt_ofNat_small (n : ℕ) (h : n < 2147483648) : (BitVec.ofNat 32 n).toInt = (n : Int) := by
  have e := BitVec.toInt_eq_toNat_cond (BitVec.ofNat 32 n)
  have t : (BitVec.ofNat 32 n).toNat = n := by rw [BitVec.toNat_ofNat]; exact Nat.mod_eq_of_lt (by omega)
  have p : (2 : Nat) ^ 32 = 4294967296 := by norm_num
  rw [t, p] at e
  split at e <;> omega

/-- Wrapping a non-negative word does nothing. -/
theorem wrapWord_of_nonneg (n w : BitVec 32) (h : 0 ≤ w.toInt) : wrapWord n w = w := by
  unfold wrapWord
  rw [Cert.LibTakeFill.cmpi_slt_zero_of_nonneg w h, select_zero]

variable (x9 : IVec S2x1600000 32) (x10 : IVec S1600000x2 32)
variable (hs : ∀ q : Fin 1600000, -100000 ≤ (x9 (ix2 (0 : Fin 2) q)).toInt ∧ (x9 (ix2 (0 : Fin 2) q)).toInt < 100000)
variable (ht : ∀ q : Fin 1600000, 0 ≤ (x10 (ix2 q (0 : Fin 2))).toInt ∧ (x10 (ix2 q (0 : Fin 2))).toInt < 6)
variable (hd : ∀ q : Fin 1600000, 0 ≤ (x10 (ix2 q (1 : Fin 2))).toInt ∧ (x10 (ix2 q (1 : Fin 2))).toInt < 3)

include hs in
/-- Every row's source word lies in [-100000, 100000). -/
theorem src_range (p : Fin 1700000) :
    -100000 ≤ (val_main_v11 (F := Ideal) x9 (ix1 p)).toInt ∧ (val_main_v11 (F := Ideal) x9 (ix1 p)).toInt < 100000 := by
  by_cases h : p.val < 1600000
  · rw [src_edge x9 p h]; exact hs _
  · have hp := p.isLt
    rw [src_loop x9 p (by omega), toInt_ofNat_small _ (by omega)]
    constructor <;> omega

include ht in
/-- Every row's bond type lies in [0, 6). -/
theorem type_range (p : Fin 1700000) :
    0 ≤ (val_main_v18 (F := Ideal) x10 (ix1 p)).toInt ∧ (val_main_v18 (F := Ideal) x10 (ix1 p)).toInt < 6 := by
  by_cases h : p.val < 1600000
  · rw [type_edge x10 p h]; exact ht _
  · rw [type_loop x10 p (by omega)]; decide

include hd in
/-- Every row's bond direction lies in [0, 3). -/
theorem dir_range (p : Fin 1700000) :
    0 ≤ (val_main_v22 (F := Ideal) x10 (ix1 p)).toInt ∧ (val_main_v22 (F := Ideal) x10 (ix1 p)).toInt < 3 := by
  by_cases h : p.val < 1600000
  · rw [dir_edge x10 p h]; exact hd _
  · rw [dir_loop x10 p (by omega)]; decide

include hs in
/-- Every row's source word, wrapped once, is a node number. -/
theorem src_wrapped_range (p : Fin 1700000) :
    0 ≤ (wrapWord 100000#32 (val_main_v11 (F := Ideal) x9 (ix1 p))).toInt
      ∧ (wrapWord 100000#32 (val_main_v11 (F := Ideal) x9 (ix1 p))).toInt ≤ 99999 := by
  have h := src_range x9 hs p
  have hn : (100000#32 : BitVec 32).toInt = 100000 := by decide
  have := Cert.LibTakeWrap.wrap_word_range (val_main_v11 (F := Ideal) x9 (ix1 p)) 100000#32 (by rw [hn]; norm_num)
    (by rw [hn]; exact h.1) (by rw [hn]; exact h.2)
  rw [hn] at this
  exact this

include ht hd in
/-- The reference's message at (p, o): the projected features of the row's source node, plus the embedding of its bond
    type, plus the embedding of its bond direction. The three rows are named by numbers equal to the wrapped source word
    and to the type and direction words. -/
theorem message_apply (x0 : FVec Ideal S100000x128 .f32) (x1 : FVec Ideal S1 .f32) (x2 : FVec Ideal S128x128 .f32)
    (x3 : FVec Ideal S6x128 .f32) (x4 : FVec Ideal S3x128 .f32) (p : Fin 1700000) (o : Fin 128)
    (rs : Fin 100000) (hrs : (wrapWord 100000#32 (val_main_v11 (F := Ideal) x9 (ix1 p))).toInt = (rs.val : Int))
    (r0 : Fin 6) (hr0 : (val_main_v18 (F := Ideal) x10 (ix1 p)).toInt = (r0.val : Int))
    (r1 : Fin 3) (hr1 : (val_main_v22 (F := Ideal) x10 (ix1 p)).toInt = (r1.val : Int)) :
    val_main_v45 (F := Ideal) x0 x1 x2 x3 x4 x9 x10 (ix2 p o)
      = val_main_v7 (F := Ideal) x0 x1 x2 (ix2 rs o) + (x3 (ix2 r0 o) + x4 (ix2 r1 o)) := by
  rw [val_main_v45_apply, val_main_v37_apply]
  unfold val_main_v44 val_main_v29 val_main_v36
  rw [gather_row gather_S100000x128_S1700000x1_S1700000x128_1_0_n_n_0_1_1128 rfl rfl rfl rfl rfl _ _ p o rs
        (by rw [src_col]; exact hrs),
      gather_row gather_S6x128_S1700000x1_S1700000x128_1_0_n_n_0_1_1128 rfl rfl rfl rfl rfl _ _ p o r0
        (by rw [type_col, wrapWord_of_nonneg _ _ (type_range x10 ht p).1]; exact hr0),
      gather_row gather_S3x128_S1700000x1_S1700000x128_1_0_n_n_0_1_1128 rfl rfl rfl rfl rfl _ _ p o r1
        (by rw [dir_col, wrapWord_of_nonneg _ _ (dir_range x10 hd p).1]; exact hr1)]
  rfl

end Cert.ReferenceIdeal.Rows

end
-- ==== Proof.PadCol.lean ====
/-
  A vector padded at its end and laid as a column, read at a row.

  The vector has M entries; P copies of a fill value are appended, and the result is laid as one column [M + P, 1]. A row
  below M reads the vector's own entry; a row from M on reads the fill value.
-/
import proofs.«417791_j37349035606505_1_alg».proof.Proof.LibUnitAxis
import Idealize.ShloMosaic.Lib.KernelVsHost

noncomputable section

namespace Cert.GinConv

open Idealize.ShloMosaic Idealize.ShloMosaic.ValueIdx

variable {α : Type}

/-- A row inside the vector reads the vector there. -/
theorem pad_col_inside {M P M' : ℕ} {u : Shape} (v : (⟨1, ![M]⟩ : Shape).Idx → α) (fill : u.Idx → α)
    (hp : (⟨1, ![M]⟩ : Shape).Pads ![0] ![P] ![0] ⟨1, ![M']⟩) (hu : 0 < u.numel)
    (bcol : (⟨1, ![M']⟩ : Shape).BroadcastsInDim ⟨2, ![M', 1]⟩ ![0])
    (p' : Fin M') (p : Fin M) (h : p'.val = p.val) :
    broadcastInDim ⟨2, ![M', 1]⟩ ![0] bcol (pad ⟨1, ![M']⟩ ![0] ![P] ![0] v fill hp hu) (ix2 p' (0 : Fin 1)) = v (ix1 p) := by
  rw [Cert.LibUnitAxis.bcast_col_apply]
  exact pad_apply_of_inside ![0] ![P] ![0] v fill hp hu (ix1 p') (ix1 p) (fun a => by
    match a with
    | ⟨0, _⟩ => show p'.val = 0 + p.val * (0 + 1); omega)

/-- A row past the vector's end reads the fill value. -/
theorem pad_col_outside {M P M' : ℕ} {u : Shape} (v : (⟨1, ![M]⟩ : Shape).Idx → α) (fill : u.Idx → α)
    (hp : (⟨1, ![M]⟩ : Shape).Pads ![0] ![P] ![0] ⟨1, ![M']⟩) (hu : 0 < u.numel)
    (bcol : (⟨1, ![M']⟩ : Shape).BroadcastsInDim ⟨2, ![M', 1]⟩ ![0])
    (p' : Fin M') (h : M ≤ p'.val) :
    broadcastInDim ⟨2, ![M', 1]⟩ ![0] bcol (pad ⟨1, ![M']⟩ ![0] ![P] ![0] v fill hp hu) (ix2 p' (0 : Fin 1))
      = fill (Shape.Idx.first hu) := by
  rw [Cert.LibUnitAxis.bcast_col_apply]
  refine pad_apply_of_not_inside ![0] ![P] ![0] v fill hp hu (ix1 p') (0 : Fin 1) ?_
  rintro ⟨-, -, h3⟩
  have h3' : (p'.val - 0) / (0 + 1) < M := h3
  omega

/-- The padded vector itself (not yet a column) at an entry inside the vector. -/
theorem pad_inside {M P M' : ℕ} {u : Shape} (v : (⟨1, ![M]⟩ : Shape).Idx → α) (fill : u.Idx → α)
    (hp : (⟨1, ![M]⟩ : Shape).Pads ![0] ![P] ![0] ⟨1, ![M']⟩) (hu : 0 < u.numel)
    (p' : Fin M') (p : Fin M) (h : p'.val = p.val) :
    pad ⟨1, ![M']⟩ ![0] ![P] ![0] v fill hp hu (ix1 p') = v (ix1 p) :=
  pad_apply_of_inside ![0] ![P] ![0] v fill hp hu (ix1 p') (ix1 p) (fun a => by
    match a with
    | ⟨0, _⟩ => show p'.val = 0 + p.val * (0 + 1); omega)

/-- The padded vector itself at an entry past the vector's end. -/
theorem pad_outside {M P M' : ℕ} {u : Shape} (v : (⟨1, ![M]⟩ : Shape).Idx → α) (fill : u.Idx → α)
    (hp : (⟨1, ![M]⟩ : Shape).Pads ![0] ![P] ![0] ⟨1, ![M']⟩) (hu : 0 < u.numel)
    (p' : Fin M') (h : M ≤ p'.val) :
    pad ⟨1, ![M']⟩ ![0] ![P] ![0] v fill hp hu (ix1 p') = fill (Shape.Idx.first hu) := by
  refine pad_apply_of_not_inside ![0] ![P] ![0] v fill hp hu (ix1 p') (0 : Fin 1) ?_
  rintro ⟨-, -, h3⟩
  have h3' : (p'.val - 0) / (0 + 1) < M := h3
  omega

end Cert.GinConv

end
-- ==== Proof.KernelRows.lean ====
/-
  The kernel's edge list, row by row, against the reference's.

  The kernel builds the same four index vectors as the reference — source, destination, bond type, bond direction, each
  the given entries followed by the self-loops' — and then appends 3936 rows: source 0, destination 100000, type 0,
  direction 0. So on a row below 1700000 each of its words is the reference's word of that row, and on a row from
  1700000 on the destination word is 100000. The type and direction words travel as the two columns of one array.
-/
import proofs.«417791_j37349035606505_1_alg».proof.Proof.Fold
import proofs.«417791_j37349035606505_1_alg».proof.Proof.RefRows
import proofs.«417791_j37349035606505_1_alg».proof.Proof.PadCol

noncomputable section

namespace Cert.Proof.KernelRows

open Cert.KernelIdeal Cert.KernelIdeal.Gen Cert.KernelIdeal.Fold Cert.GinConv
open Idealize.ShloMosaic Idealize.ShloMosaic.ValueIdx

/-! ## The kernel's index vectors before padding are the reference's -/

theorem srcCat_eq (e : IVec S2x1600000 32) : srcCat e = Cert.ReferenceIdeal.Read.val_main_v11 (F := Ideal) e := rfl
theorem dstCat_eq (e : IVec S2x1600000 32) : dstCat e = Cert.ReferenceIdeal.Read.val_main_v14 (F := Ideal) e := rfl
theorem e0Cat_eq (a : IVec S1600000x2 32) : e0Cat a = Cert.ReferenceIdeal.Read.val_main_v18 (F := Ideal) a := rfl
theorem e1Cat_eq (a : IVec S1600000x2 32) : e1Cat a = Cert.ReferenceIdeal.Read.val_main_v22 (F := Ideal) a := rfl

/-! ## The padded vectors at a row -/

/-- The source word of a row below 1700000 is the reference's. -/
theorem src_inside (e : IVec S2x1600000 32) (p' : Fin 1703936) (p : Fin 1700000) (h : p'.val = p.val) :
    srcPad e (ix1 p') = Cert.ReferenceIdeal.Read.val_main_v11 (F := Ideal) e (ix1 p) := by
  rw [← srcCat_eq]
  exact pad_inside (M := 1700000) (P := 3936) (M' := 1703936) (srcCat e) (constantI S_ 32 0#32) pads_S1700000_S1703936_039360 h_S_ p' p h

/-- The source word of an appended row is 0. -/
theorem src_outside (e : IVec S2x1600000 32) (p' : Fin 1703936) (h : 1700000 ≤ p'.val) :
    srcPad e (ix1 p') = 0#32 :=
  pad_outside (M := 1700000) (P := 3936) (M' := 1703936) (srcCat e) (constantI S_ 32 0#32) pads_S1700000_S1703936_039360 h_S_ p' h

/-- The destination column at a row below 1700000 is the reference's destination word. -/
theorem dst_col_inside (e : IVec S2x1600000 32) (p' : Fin 1703936) (p : Fin 1700000) (h : p'.val = p.val) :
    broadcastInDim S1703936x1 ![0] bcast_S1703936_S1703936x1_0 (dstPad e) (ix2 p' (0 : Fin 1))
      = Cert.ReferenceIdeal.Read.val_main_v14 (F := Ideal) e (ix1 p) := by
  rw [← dstCat_eq]
  exact pad_col_inside (M := 1700000) (P := 3936) (M' := 1703936) (dstCat e) (constantI S_ 32 100000#32) pads_S1700000_S1703936_039360 h_S_ bcast_S1703936_S1703936x1_0 p' p h

/-- The destination column at an appended row is 100000, one past the last node. -/
theorem dst_col_outside (e : IVec S2x1600000 32) (p' : Fin 1703936) (h : 1700000 ≤ p'.val) :
    (broadcastInDim S1703936x1 ![0] bcast_S1703936_S1703936x1_0 (dstPad e) (ix2 p' (0 : Fin 1))).toInt = 100000 := by
  have e1 : broadcastInDim S1703936x1 ![0] bcast_S1703936_S1703936x1_0 (dstPad e) (ix2 p' (0 : Fin 1)) = 100000#32 :=
    pad_col_outside (M := 1700000) (P := 3936) (M' := 1703936) (dstCat e) (constantI S_ 32 100000#32) pads_S1700000_S1703936_039360 h_S_ bcast_S1703936_S1703936x1_0 p' h
  rw [e1]; decide

/-! ## The two word columns -/

/-- The bond types and directions as the kernel passes them: two padded columns side by side. -/
def words (a : IVec S1600000x2 32) : IVec S1703936x2 32 :=
  concatenate S1703936x2 1
    [⟨S1703936x1, broadcastInDim S1703936x1 ![0] bcast_S1703936_S1703936x1_0 (e0Pad a)⟩,
      ⟨S1703936x1, broadcastInDim S1703936x1 ![0] bcast_S1703936_S1703936x1_0 (e1Pad a)⟩]
    concatenates_S1703936x1_S1703936x1_S1703936x2_d1

/-- Column 0 of a row below 1700000 is the reference's bond type of that row. -/
theorem words_type (a : IVec S1600000x2 32) (p' : Fin 1703936) (p : Fin 1700000) (h : p'.val = p.val) :
    words a (ix2 p' (0 : Fin 2)) = Cert.ReferenceIdeal.Read.val_main_v18 (F := Ideal) a (ix1 p) := by
  unfold words
  rw [concatenate_pair_apply_left (t := S1703936x2) (s₁ := S1703936x1) (s₂ := S1703936x1) (1 : Fin 2) _ _
    concatenates_S1703936x1_S1703936x1_S1703936x2_d1 (ix2 p' (0 : Fin 2)) rfl (ix2 p' (0 : Fin 1))
    (fun b => by match b with | ⟨0, _⟩ => rfl | ⟨1, _⟩ => rfl)]
  rw [← e0Cat_eq]
  exact pad_col_inside (M := 1700000) (P := 3936) (M' := 1703936) (e0Cat a) (constantI S_ 32 0#32) pads_S1700000_S1703936_039360 h_S_ bcast_S1703936_S1703936x1_0 p' p h

/-- Column 1 of a row below 1700000 is the reference's bond direction of that row. -/
theorem words_dir (a : IVec S1600000x2 32) (p' : Fin 1703936) (p : Fin 1700000) (h : p'.val = p.val) :
    words a (ix2 p' (1 : Fin 2)) = Cert.ReferenceIdeal.Read.val_main_v22 (F := Ideal) a (ix1 p) := by
  unfold words
  rw [concatenate_pair_apply_right (t := S1703936x2) (s₁ := S1703936x1) (s₂ := S1703936x1) (1 : Fin 2) _ _
    concatenates_S1703936x1_S1703936x1_S1703936x2_d1 (ix2 p' (1 : Fin 2)) rfl rfl (ix2 p' (0 : Fin 1))
    (fun b hb => by match b with | ⟨0, _⟩ => rfl | ⟨1, _⟩ => exact absurd rfl hb)
    (by show 0 + 1 = 1; rfl)]
  rw [← e1Cat_eq]
  exact pad_col_inside (M := 1700000) (P := 3936) (M' := 1703936) (e1Cat a) (constantI S_ 32 0#32) pads_S1700000_S1703936_039360 h_S_ bcast_S1703936_S1703936x1_0 p' p h

end Cert.Proof.KernelRows

end
-- ==== Proof.OneHot.lean ====
/-
  A one-hot row against a table selects one row of the table.

  The row has a one where the table's row number equals the word and zeros elsewhere, each made from the one-bit test
  "word = k" widened to 32 bits and converted to a number. When the word, read as a signed integer, is a row number of the
  table, exactly one term of the sum over the table's rows survives: the table's entry at that row. On the extended reals
  this needs no finiteness: zero times anything is zero, and adding zeros changes nothing.
-/
import proofs.«417791_j37349035606505_1_alg».proof.Proof.Spec
import Idealize.ShloMosaic.Lib.StableHlo.Predicate

noncomputable section

open scoped BigOperators

namespace Cert.GinConv

open Idealize.ShloMosaic Idealize.ShloMosaic.ValueIdx

/-- A word that is a non-negative signed integer below 2^31 is that natural number. -/
theorem toNat_of_toInt_nonneg (a : BitVec 32) (h : 0 ≤ a.toInt) : (a.toNat : Int) = a.toInt := by
  have e := BitVec.toInt_eq_toNat_cond a
  have p : (2 : Nat) ^ 32 = 4294967296 := by norm_num
  rw [p] at e
  split at e <;> omega

/-- The widened, converted test "word = k": one where the word is the number k, zero otherwise. -/
theorem hot_entry (word : BitVec 32) (k : ℕ) (hk : k < 2 ^ 32) :
    FloatOps.sitofp (F := Ideal) .f32 ((IntOp.cmpi .eq word (BitVec.ofNat 32 k)).setWidth 32)
      = if word.toNat = k then (1 : EReal) else 0 := by
  have hiff : word = BitVec.ofNat 32 k ↔ word.toNat = k := by
    constructor
    · intro e; rw [e, BitVec.toNat_ofNat, Nat.mod_eq_of_lt hk]
    · intro e; apply BitVec.eq_of_toNat_eq; rw [BitVec.toNat_ofNat, Nat.mod_eq_of_lt hk]; exact e
  by_cases hw : word.toNat = k
  · rw [if_pos hw]
    have hc : IntOp.cmpi .eq word (BitVec.ofNat 32 k) = 1#1 := StableHlo.Predicate.cmpi_eq_iff.2 (hiff.2 hw)
    rw [hc]
    show (((((1#1 : BitVec 1).setWidth 32).toInt : ℝ)) : EReal) = 1
    have : ((1#1 : BitVec 1).setWidth 32).toInt = 1 := by decide
    rw [this]; norm_num
  · rw [if_neg hw]
    have hc : IntOp.cmpi .eq word (BitVec.ofNat 32 k) = 0#1 :=
      eq_zero_of_ne_one fun h1 => hw (hiff.1 (StableHlo.Predicate.cmpi_eq_iff.1 h1))
    rw [hc]
    show (((((0#1 : BitVec 1).setWidth 32).toInt : ℝ)) : EReal) = 0
    have : ((0#1 : BitVec 1).setWidth 32).toInt = 0 := by decide
    rw [this]; norm_num

/-- The one-hot row of a word that is a row number of the table reads the table at that row. -/
theorem oneHotRow_eq {K e : ℕ} (word : BitVec 32) (T : (Mat K e).Idx → EReal) (o : Fin e) (hK : K ≤ 2 ^ 31)
    (h0 : 0 ≤ word.toInt) (h1 : word.toInt < (K : Int)) (r : Fin K) (hr : (r.val : Int) = word.toInt) :
    oneHotRow word T o = T (ix2 r o) := by
  have hnat : word.toNat = r.val := by have := toNat_of_toInt_nonneg word h0; omega
  unfold oneHotRow
  rw [Finset.sum_eq_single r]
  · rw [hot_entry word r.val (lt_of_lt_of_le (lt_of_lt_of_le r.isLt hK) (by norm_num)), if_pos hnat, one_mul]
  · intro k _ hne
    have hk : ¬ word.toNat = k.val := fun e => hne (Fin.ext (by omega))
    rw [hot_entry word k.val (lt_of_lt_of_le (lt_of_lt_of_le k.isLt hK) (by norm_num)), if_neg hk, zero_mul]
  · intro h; exact absurd (Finset.mem_univ _) h

end Cert.GinConv

end
-- ==== Proof.KernelMessage.lean ====
/-
  The kernel's message on a row, read as table entries.

  The kernel adds to the gathered row the two one-hot products. Where the row's two words are row numbers of their
  tables, each product is the table's entry at that row, so the message at (p, o) is the gathered entry plus the two
  embedding entries.
-/
import proofs.«417791_j37349035606505_1_alg».proof.Proof.OneHot

noncomputable section

namespace Cert.GinConv

open Idealize.ShloMosaic Idealize.ShloMosaic.ValueIdx

/-- The message at (p, o) when the row's words w0, w1 are the row numbers r0, r1 of the two tables. -/
theorem combineRows_apply {M e K1 K2 : ℕ} (hs : (Mat M e).Idx → EReal) (words : (Mat M 2).Idx → BitVec 32)
    (T1 : (Mat K1 e).Idx → EReal) (T2 : (Mat K2 e).Idx → EReal) (p : Fin M) (o : Fin e)
    (hK1 : K1 ≤ 2 ^ 31) (hK2 : K2 ≤ 2 ^ 31)
    (r0 : Fin K1) (hr0 : (words (ix2 p (0 : Fin 2))).toInt = (r0.val : Int))
    (r1 : Fin K2) (hr1 : (words (ix2 p (1 : Fin 2))).toInt = (r1.val : Int)) :
    combineRows hs words T1 T2 (ix2 p o) = hs (ix2 p o) + (T1 (ix2 r0 o) + T2 (ix2 r1 o)) := by
  show hs (ix2 p o) + (oneHotRow (words (ix2 p (0 : Fin 2))) T1 o + oneHotRow (words (ix2 p (1 : Fin 2))) T2 o) = _
  have b0 := r0.isLt
  have b1 := r1.isLt
  rw [oneHotRow_eq _ T1 o hK1 (by omega) (by omega) r0 hr0.symm, oneHotRow_eq _ T2 o hK2 (by omega) (by omega) r1 hr1.symm]

end Cert.GinConv

end
-- ==== Proof.LibScatterRows.lean ====
/-
  A scatter-add of rows read at an index, on the extended reals.

  Updates [M, C] are added into an operand [R, C]: row p of the updates goes to the operand row named by start index
  p — a column [M, 1] of words read as signed integers and not clamped — and keeps its column; a row whose index falls
  outside the operand is dropped. At (n, o) the result is the operand there plus the sum, over the update rows whose
  index is n, of the update at (p, o).
-/
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

/-- The dimension numbers of a scatter-add of rows, opened: operand [R, C], a column [M, 1] of start indices, updates
    [M, C]; the update's column axis is its one window axis, the operand's row axis is the one inserted axis and the one
    axis a start index names, and the index vector lies along the indices' second axis. -/
abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

/-- On the row axis the window of update (p, q) starts at start index p, read signed and not clamped. -/
theorem scatterRows_start0 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- On the column axis no start index is named: the window of update (p, q) starts at 0. -/
theorem scatterRows_start1 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

/-- The row axis is inserted: the window coordinate of update (p, q) there is 0. -/
theorem scatterRows_window0 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

/-- The column axis is the one window axis: the window coordinate of update (p, q) there is q. -/
theorem scatterRows_window1 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

/-- Update (p, q) lands on operand element (n, o) exactly when start index p, read signed, is n and q is o: on the row
    axis the landing coordinate is the start index (which must lie in [0, R) to land at all), on the column axis it is
    q. -/
theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

/-- THE SCATTER-ADD OF ROWS at (n, o). The four hypotheses are the printed dimension numbers, each by `rfl`. -/
theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1
  -- both filtered sums become sums of guarded terms; the sum over update indices is the double sum over (p, q)
  rw [Finset.sum_filter, Finset.sum_filter, sum_idx2]
  refine Finset.sum_congr rfl fun p _ => ?_
  -- row p: the guard on (p, q) is "start index p is n, and q = o"; the inner sum over q keeps the one term q = o
  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.Aggregate.lean ====
/-
  Two scatter-adds of rows that differ only by dropped rows.

  One scatter-add has M update rows; the other has the same M rows followed by P more, each of which names a row number
  outside the operand and is therefore dropped. At every entry the two results are the same: the sum over the longer list
  of the rows landing on row n splits into the first M rows, where the two lists agree, and the last P rows, none of
  which lands anywhere.
-/
import proofs.«417791_j37349035606505_1_alg».proof.Proof.LibScatterRows
import Mathlib.Algebra.BigOperators.Fin

noncomputable section

open scoped BigOperators

namespace Cert.GinConv.Aggregate

open Idealize.ShloMosaic Idealize.ShloMosaic.ValueIdx

/-- A sum over the first M + P numbers is the sum over the first M plus the sum over the P after them. -/
theorem sum_split {A : Type} [AddCommMonoid A] (M P M' : ℕ) (h : M + P = M') (g : Fin M' → A) :
    ∑ i : Fin M', g i
      = ∑ i : Fin M, g ⟨i.val, by have := i.isLt; omega⟩ + ∑ j : Fin P, g ⟨M + j.val, by have := j.isLt; omega⟩ := by
  subst h
  rw [Fin.sum_univ_add]
  rfl

/-- The two scatter-adds at (n, o). The longer one's index column agrees with the shorter one's on the first M rows
    (hcol) and names row R — one past the operand's last — on the P rows after them (hpad); the updates agree at column
    o on the first M rows (hu). -/
theorem scatter_eq {R C M P M' : ℕ} (hM : M + P = M') (hR : (R : Int) < 2 ^ 31)
    (dK : ScatterDims ⟨2, ![R, C]⟩ ⟨2, ![M', 1]⟩ ⟨2, ![M', C]⟩)
    (huwK : dK.updateWindowDims = [1]) (hiwK : dK.insertedWindowDims = [0]) (hsdK : dK.scatterDimsToOperandDims = [0])
    (hivK : dK.indexVectorDim = 1)
    (dR : ScatterDims ⟨2, ![R, C]⟩ ⟨2, ![M, 1]⟩ ⟨2, ![M, C]⟩)
    (huwR : dR.updateWindowDims = [1]) (hiwR : dR.insertedWindowDims = [0]) (hsdR : dR.scatterDimsToOperandDims = [0])
    (hivR : dR.indexVectorDim = 1)
    (z : (⟨2, ![R, C]⟩ : Shape).Idx → EReal)
    (colK : IVec ⟨2, ![M', 1]⟩ 32) (colR : IVec ⟨2, ![M, 1]⟩ 32)
    (uK : (⟨2, ![M', C]⟩ : Shape).Idx → EReal) (uR : (⟨2, ![M, C]⟩ : Shape).Idx → EReal)
    (n : Fin R) (o : Fin C)
    (hcol : ∀ p : Fin M, colK (ix2 (⟨p.val, by have := p.isLt; omega⟩ : Fin M') (0 : Fin 1)) = colR (ix2 p (0 : Fin 1)))
    (hpad : ∀ j : Fin P, (colK (ix2 (⟨M + j.val, by have := j.isLt; omega⟩ : Fin M') (0 : Fin 1))).toInt = (R : Int))
    (hu : ∀ p : Fin M, uK (ix2 (⟨p.val, by have := p.isLt; omega⟩ : Fin M') o) = uR (ix2 p o)) :
    Host.scatterAdd (F := Ideal) (φ := .f32) dK z colK uK (ix2 n o)
      = Host.scatterAdd (F := Ideal) (φ := .f32) dR z colR uR (ix2 n o) := by
  rw [Cert.ScatterRows.scatter_rows_apply dK huwK hiwK hsdK hivK, Cert.ScatterRows.scatter_rows_apply dR huwR hiwR hsdR hivR]
  congr 1
  rw [Finset.sum_filter, Finset.sum_filter, sum_split M P M' hM]
  have hzero : ∑ j : Fin P, (if (colK (ix2 (⟨M + j.val, by have := j.isLt; omega⟩ : Fin M') (0 : Fin 1))).toInt = (n.val : Int)
      then uK (ix2 (⟨M + j.val, by have := j.isLt; omega⟩ : Fin M') o) else 0) = 0 := by
    refine Finset.sum_eq_zero fun j _ => ?_
    rw [hpad j, if_neg]
    have := n.isLt
    omega
  rw [hzero, add_zero]
  refine Finset.sum_congr rfl fun p _ => ?_
  rw [hcol p, hu p]

end Cert.GinConv.Aggregate

end
-- ==== Proof.PreDecode.lean ====
/-
  The index ranges the precondition states, read out of its printed form.

  The precondition is one bit: the "and" of a chain of tests, each an "and"-reduction over a whole array. Nine of them say
  that a float array is finite. Six say, of the edges' source nodes, bond types and bond directions, that every entry is at
  least a lower bound and below an upper bound, each entry read as a signed 32-bit integer. When the bit is one, every
  test holds at every entry.
-/
import proofs.«417791_j37349035606505_1_alg».proof.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.GinConv.PreDecode

open Cert.Pre_finite_inputs Idealize.ShloMosaic Idealize.ShloMosaic.ValueIdx

variable {F : FTy → Type} [FloatOps F] [Cert.Pre_finite_inputs.Facts]

/-- The scalar shape has one index. -/
instance subsingleton_scalar_idx : Subsingleton S_.Idx := ⟨fun a b => funext fun d => d.elim0⟩

/-- Row 0 of a [2 × n] array, cut out as a [1 × n] slice and flattened, reads at `p` the array at (0, p). -/
theorem row0_read (x : IVec S2x1600000 32) (hs : S2x1600000.Slices ![0, 0] S1x1600000)
    (hc : S1x1600000.ShapeCasts S1600000) (p : Fin 1600000) :
    shapeCast S1600000 (extractStridedSlice S1x1600000 ![0, 0] x hs) hc (ix1 p) = x (ix2 (0 : Fin 2) p) := by
  refine (shapeCast_apply _ hc (ix1 p) (ix2 (0 : Fin 1) p) ?_).trans ?_
  · rw [Shape.rowMajor_val_two, Shape.rowMajor_val_one]
    show 0 * 1600000 + p.val = p.val
    omega
  · refine extractStridedSlice_apply _ x hs _ _ fun a => ?_
    match a with
    | ⟨0, _⟩ => rfl
    | ⟨1, _⟩ => show p.val = 0 + p.val; omega

/-- Column `k` of an [n × 2] array, cut out as an [n × 1] slice and flattened, reads at `p` the array at (p, k). -/
theorem col_read (k : Nat) (hk : k < 2) (x : IVec S1600000x2 32) (hs : S1600000x2.Slices ![0, k] S1600000x1)
    (hc : S1600000x1.ShapeCasts S1600000) (p : Fin 1600000) :
    shapeCast S1600000 (extractStridedSlice S1600000x1 ![0, k] x hs) hc (ix1 p) = x (ix2 p (⟨k, hk⟩ : Fin 2)) := by
  refine (shapeCast_apply _ hc (ix1 p) (ix2 p (0 : Fin 1)) ?_).trans ?_
  · rw [Shape.rowMajor_val_two, Shape.rowMajor_val_one]
    show p.val * 1 + 0 = p.val
    omega
  · refine extractStridedSlice_apply _ x hs _ _ fun a => ?_
    match a with
    | ⟨0, _⟩ => show p.val = 0 + p.val; omega
    | ⟨1, _⟩ => show k = k + 0; omega

/-- The last link of an "and" chain of scalar bits that is one: both sides are one. -/
theorem andi_split {x y : IVec S_ 1} (e : andi x y ix0 = 1#1) : x ix0 = 1#1 ∧ y ix0 = 1#1 := IntOp.andi_eq_one.1 e

/-- A whole-array test "every entry is at least the constant `c`, signed" that came out one holds at every entry. -/
theorem all_sge {x : IVec S1600000 32} (c : BitVec 32) (hb : S_.BroadcastsInDim S1600000 (![] : Fin 0 → Fin S1600000.rank))
    (hr : S1600000.ReducesTo [0] S_) (hu : 0 < S_.numel)
    (e : Host.reduce IntOp.andi (cmpi .sge x (broadcastInDim S1600000 ![] hb (constantI S_ 32 c))) (constantI S_ 1 1#1) hr hu ix0 = 1#1)
    (p : Fin 1600000) : c.toInt ≤ (x (ix1 p)).toInt := by
  have e1 := Host.reduce_andi_all _ _ hr hu ix0 e (ix1 p)
  exact IntOp.cmpi_sge.1 e1

/-- A whole-array test "every entry is below the constant `c`, signed" that came out one holds at every entry. -/
theorem all_slt {x : IVec S1600000 32} (c : BitVec 32) (hb : S_.BroadcastsInDim S1600000 (![] : Fin 0 → Fin S1600000.rank))
    (hr : S1600000.ReducesTo [0] S_) (hu : 0 < S_.numel)
    (e : Host.reduce IntOp.andi (cmpi .slt x (broadcastInDim S1600000 ![] hb (constantI S_ 32 c))) (constantI S_ 1 1#1) hr hu ix0 = 1#1)
    (p : Fin 1600000) : (x (ix1 p)).toInt < c.toInt := by
  have e1 := Host.reduce_andi_all _ _ hr hu ix0 e (ix1 p)
  exact IntOp.cmpi_slt.1 e1

/-- Where the precondition's bit is one: every source node lies in [-100000, 100000), every bond type in [0, 6) and every
    bond direction in [0, 3), as signed integers. -/
theorem ranges (a0 : FVec F S100000x128 .f32) (a1 : FVec F S1 .f32) (a2 : FVec F S128x128 .f32) (a3 : FVec F S6x128 .f32)
    (a4 : FVec F S3x128 .f32) (a5 : FVec F S256x128 .f32) (a6 : FVec F S256 .f32) (a7 : FVec F S128x256 .f32)
    (a8 : FVec F S128 .f32) (a9 : IVec S2x1600000 32) (a10 : IVec S1600000x2 32)
    (h : fn (F := F) a0 a1 a2 a3 a4 a5 a6 a7 a8 a9 a10 = (fun _ => 1#1)) :
    (∀ p : Fin 1600000, -100000 ≤ (a9 (ix2 (0 : Fin 2) p)).toInt ∧ (a9 (ix2 (0 : Fin 2) p)).toInt < 100000)
    ∧ (∀ p : Fin 1600000, 0 ≤ (a10 (ix2 p (0 : Fin 2))).toInt ∧ (a10 (ix2 p (0 : Fin 2))).toInt < 6)
    ∧ (∀ p : Fin 1600000, 0 ≤ (a10 (ix2 p (1 : Fin 2))).toInt ∧ (a10 (ix2 p (1 : Fin 2))).toInt < 3) := by
  have h0 := congrFun h ix0
  dsimp only [fn, fn_part1, fn_part2, fn_part3, fn_part4] at h0
  obtain ⟨h1, t6⟩ := andi_split h0
  obtain ⟨h2, t5⟩ := andi_split h1
  obtain ⟨h3, t4⟩ := andi_split h2
  obtain ⟨h4, t3⟩ := andi_split h3
  obtain ⟨h5, t2⟩ := andi_split h4
  obtain ⟨-, t1⟩ := andi_split h5
  clear h0 h1 h2 h3 h4 h5
  refine ⟨fun p => ⟨?_, ?_⟩, fun p => ⟨?_, ?_⟩, fun p => ⟨?_, ?_⟩⟩
  · have e := all_sge (4294867296#32) _ _ _ t1 p
    rw [row0_read a9 _ _ p, show (4294867296#32 : BitVec 32).toInt = -100000 from by decide] at e
    exact e
  · have e := all_slt (100000#32) _ _ _ t2 p
    rw [row0_read a9 _ _ p, show (100000#32 : BitVec 32).toInt = 100000 from by decide] at e
    exact e
  · have e := all_sge (0#32) _ _ _ t3 p
    rw [col_read 0 (by decide) a10 _ _ p, show (0#32 : BitVec 32).toInt = 0 from by decide] at e
    exact e
  · have e := all_slt (6#32) _ _ _ t4 p
    rw [col_read 0 (by decide) a10 _ _ p, show (6#32 : BitVec 32).toInt = 6 from by decide] at e
    exact e
  · have e := all_sge (0#32) _ _ _ t5 p
    rw [col_read 1 (by decide) a10 _ _ p, show (0#32 : BitVec 32).toInt = 0 from by decide] at e
    exact e
  · have e := all_slt (3#32) _ _ _ t6 p
    rw [col_read 1 (by decide) a10 _ _ p, show (3#32 : BitVec 32).toInt = 3 from by decide] at e
    exact e

end Cert.GinConv.PreDecode

end
-- ==== Proof.Bridge.lean ====
/-
  The kernel's result is the reference's result.

  Both programs apply the same perceptron to their aggregated rows, so it is enough that the aggregated rows agree. Both
  aggregate by a scatter-add of the messages at their destination nodes. The kernel's edge list is the reference's with
  3936 rows appended whose destination is 100000, one past the last node: those rows are dropped. On the other 1700000
  rows the destinations are the same words, and the messages agree entry by entry: the gathered projected features are
  read at the same wrapped source word, which under the precondition is a node number, so the kernel's fill never shows
  and the reference's clamp is idle; and the two one-hot products are the table entries the reference gathers, because
  under the precondition the bond type and direction are row numbers of their tables.
-/
import proofs.«417791_j37349035606505_1_alg».proof.Proof.KernelEnds
import proofs.«417791_j37349035606505_1_alg».proof.Proof.Region1
import proofs.«417791_j37349035606505_1_alg».proof.Proof.RefDense
import proofs.«417791_j37349035606505_1_alg».proof.Proof.RefMessage
import proofs.«417791_j37349035606505_1_alg».proof.Proof.KernelRows
import proofs.«417791_j37349035606505_1_alg».proof.Proof.KernelMessage
import proofs.«417791_j37349035606505_1_alg».proof.Proof.Aggregate
import proofs.«417791_j37349035606505_1_alg».proof.Proof.GatherRow
import proofs.«417791_j37349035606505_1_alg».proof.Proof.LibTakeWrap
import proofs.«417791_j37349035606505_1_alg».proof.Proof.PreDecode
import proofs.«417791_j37349035606505_1_alg».proof.Pre_finite_inputs

set_option maxRecDepth 16384

noncomputable section

namespace Cert.Proof.Bridge

open Cert.KernelIdeal Cert.KernelIdeal.Gen Cert.KernelIdeal.Fold Cert.GinConv Cert.Proof.KernelRows
open Cert.ReferenceIdeal.Read Cert.ReferenceIdeal.Rows
open Idealize.ShloMosaic Idealize.ShloMosaic.TcCoe Idealize.ShloMosaic.ValueIdx Idealize.SL.Sem

variable (m : (ℓ : Loc nD τ sig) → Buf (Elt Ideal) ℓ) (ρ : Dev nD → PrngReg)

/-- The projected node features, as the reference names them. -/
theorem features_ref (c : Dev nD) :
    W2 m ρ c (Proc.devRef .tc main_v2) = val_main_v7 (F := Ideal) (m ((c : Thread nD τ).loc main_arg0)) (m ((c : Thread nD τ).loc main_arg1)) (m ((c : Thread nD τ).loc main_arg2)) := by
  rw [Cert.KernelIdeal.Ends.features m ρ c, Cert.ReferenceIdeal.Dense.proj_eq]

section Ranges

variable (c : Dev nD)
variable (hs : ∀ q : Fin 1600000, -100000 ≤ ((m ((c : Thread nD τ).loc main_arg9)) (ix2 (0 : Fin 2) q)).toInt ∧ ((m ((c : Thread nD τ).loc main_arg9)) (ix2 (0 : Fin 2) q)).toInt < 100000)
variable (ht : ∀ q : Fin 1600000, 0 ≤ ((m ((c : Thread nD τ).loc main_arg10)) (ix2 q (0 : Fin 2))).toInt ∧ ((m ((c : Thread nD τ).loc main_arg10)) (ix2 q (0 : Fin 2))).toInt < 6)
variable (hd : ∀ q : Fin 1600000, 0 ≤ ((m ((c : Thread nD τ).loc main_arg10)) (ix2 q (1 : Fin 2))).toInt ∧ ((m ((c : Thread nD τ).loc main_arg10)) (ix2 q (1 : Fin 2))).toInt < 3)

include hs in
/-- Every one of the kernel's 1703936 source words lies in [-100000, 100000): the reference's word on a row below
    1700000, and 0 on an appended row. -/
theorem src_words_range (p' : Fin 1703936) :
    -100000 ≤ (srcPad (m ((c : Thread nD τ).loc main_arg9)) (ix1 p')).toInt ∧ (srcPad (m ((c : Thread nD τ).loc main_arg9)) (ix1 p')).toInt < 100000 := by
  by_cases h : p'.val < 1700000
  · rw [src_inside _ p' ⟨p'.val, h⟩ rfl]
    exact src_range _ hs _
  · rw [src_outside _ p' (by omega)]; decide

/-- The take in fill mode with every wrapped index a row number: the filled select is its gathered branch. The range
    mask here is the library's, spelt with this program's own side conditions. -/
theorem take_is_gather (ix : IVec S1703936 32)
    (hix : ∀ p' : Fin 1703936, -100000 ≤ (ix (ix1 p')).toInt ∧ (ix (ix1 p')).toInt < 100000)
    (g f : S1703936x128.Idx → EReal) :
    select (broadcastInDim S1703936x128 ![0] bcast_S1703936_S1703936x128_0 (takeMask ix)) g f = g := by
  have hn : (100000#32 : BitVec 32).toInt = 100000 := by decide
  exact Cert.LibTakeWrap.take_fill_eq_of_signed (C := 128) (M := 1703936) 100000#32 99999#32 (by rw [hn]; norm_num) (by decide)
    bcast_S_S1703936 bcast_S1703936_S1703936x1_0 bcast_S_S1703936x1 bcast_S1_S1x1_1 bcast_S1x1_S1703936x1_0_1
    reducesTo_S1703936x1_S1703936_d1 h_S_ bcast_S1703936_S1703936x128_0 ix (fun p' => by rw [hn]; exact hix p') g f

/-- The gather's index column at a row: the source word wrapped once by 100000. -/
theorem takeCol_apply (ix : IVec S1703936 32) (p' : Fin 1703936) :
    takeCol ix (ix2 p' (0 : Fin 1)) = wrapWord 100000#32 (ix (ix1 p')) :=
  Cert.LibTakeWrap.wrapCol_eq 100000#32 bcast_S_S1703936 bcast_S1703936_S1703936x1_0 ix p'

include hs in
/-- The kernel's gathered row on a row below 1700000: the projected features of the node the wrapped source word
    names. -/
theorem gathered_row (p : Fin 1700000) (o : Fin 128) (rs : Fin 100000)
    (hrs : (wrapWord 100000#32 (val_main_v11 (F := Ideal) (m ((c : Thread nD τ).loc main_arg9)) (ix1 p))).toInt = (rs.val : Int)) :
    V12 m ρ c main_v22 (ix2 (⟨p.val, by have := p.isLt; omega⟩ : Fin 1703936) o)
      = val_main_v7 (F := Ideal) (m ((c : Thread nD τ).loc main_arg0)) (m ((c : Thread nD τ).loc main_arg1)) (m ((c : Thread nD τ).loc main_arg2)) (ix2 rs o) := by
  rw [V12_v22, take_is_gather _ (src_words_range m c hs), features_ref]
  refine gather_row gather_S100000x128_S1703936x1_S1703936x128_1_0_n_n_0_1_1128 rfl rfl rfl rfl rfl _ _ _ o rs ?_
  rw [takeCol_apply, src_inside _ _ p rfl]
  exact hrs

include hs ht hd in
/-- The aggregated rows agree. -/
theorem aggregated :
    V14 m ρ c main_v29 = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) := by
  have hmsg : W13 m ρ c (Proc.devRef .tc main_v26)
      = combineRows (V12 m ρ c main_v22) (words (m ((c : Thread nD τ).loc main_arg10))) (m ((c : Thread nD τ).loc main_arg3)) (m ((c : Thread nD τ).loc main_arg4)) := by
    refine (W13_arr m ρ c 4).trans ?_
    rw [Cert.KernelIdeal.Region1.arr_out (V12 m ρ) c, V12_v25, V12_arg3, V12_arg4]
    rfl
  rw [V14_v29, hmsg]
  funext i
  obtain ⟨n, o, rfl⟩ : ∃ (n : Fin 100000) (o : Fin 128), i = ix2 n o := ⟨i 0, i 1, eq_ix2 i⟩
  unfold val_main_v48
  refine Cert.GinConv.Aggregate.scatter_eq (M := 1700000) (P := 3936) (M' := 1703936) rfl (by norm_num)
    scatter_S100000x128_S1703936x1_S1703936x128_1_0_0_1 rfl rfl rfl rfl
    Cert.ReferenceIdeal.scatter_S100000x128_S1700000x1_S1700000x128_1_0_0_1 rfl rfl rfl rfl
    _ _ _ _ _ n o ?_ ?_ ?_
  · intro p
    rw [dst_col_inside _ _ p rfl, dst_col]
  · intro j
    exact dst_col_outside _ _ (by show 1700000 ≤ 1700000 + j.val; omega)
  · intro p
    have h0 := type_range _ ht p
    have h1 := dir_range _ hd p
    have h2 := src_wrapped_range _ hs p
    -- the three rows named as numbers, kept as variables: the words themselves are never evaluated
    obtain ⟨rs, hrs⟩ : ∃ rs : Fin 100000,
        (wrapWord 100000#32 (val_main_v11 (F := Ideal) (m ((c : Thread nD τ).loc main_arg9)) (ix1 p))).toInt = (rs.val : Int) :=
      ⟨⟨(wrapWord 100000#32 (val_main_v11 (F := Ideal) (m ((c : Thread nD τ).loc main_arg9)) (ix1 p))).toInt.toNat, by omega⟩,
        (Int.toNat_of_nonneg h2.1).symm⟩
    obtain ⟨r0, hr0⟩ : ∃ r0 : Fin 6, (val_main_v18 (F := Ideal) (m ((c : Thread nD τ).loc main_arg10)) (ix1 p)).toInt = (r0.val : Int) :=
      ⟨⟨(val_main_v18 (F := Ideal) (m ((c : Thread nD τ).loc main_arg10)) (ix1 p)).toInt.toNat, by omega⟩, (Int.toNat_of_nonneg h0.1).symm⟩
    obtain ⟨r1, hr1⟩ : ∃ r1 : Fin 3, (val_main_v22 (F := Ideal) (m ((c : Thread nD τ).loc main_arg10)) (ix1 p)).toInt = (r1.val : Int) :=
      ⟨⟨(val_main_v22 (F := Ideal) (m ((c : Thread nD τ).loc main_arg10)) (ix1 p)).toInt.toNat, by omega⟩, (Int.toNat_of_nonneg h1.1).symm⟩
    rw [combineRows_apply _ _ _ _ _ o (by norm_num) (by norm_num)
        r0 (by rw [words_type _ _ p rfl]; exact hr0) r1 (by rw [words_dir _ _ p rfl]; exact hr1),
      message_apply _ _ ht hd _ _ _ _ _ p o rs hrs r0 hr0 r1 hr1,
      gathered_row m ρ c hs p o rs hrs]

end Ranges

variable [Cert.Pre_finite_inputs.Facts]

/-- The kernel's result array at the return is the reference's result stage of the same argument arrays. -/
theorem kernel_eq_reference (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = (fun _ => 1#1)) :
    W15 m ρ c (Proc.devRef .tc main_v34)
      = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨hs, ht, hd⟩ := Cert.GinConv.PreDecode.ranges _ _ _ _ _ _ _ _ _ _ _ hpre
  rw [Cert.KernelIdeal.Ends.result m ρ c, Cert.ReferenceIdeal.Dense.result_eq, aggregated m ρ c hs ht hd]

end Cert.Proof.Bridge

end
-- ==== Proof.lean ====
/-
  One graph-isomorphism convolution layer on a graph of 100000 nodes and 1600000 edges: the kernel against its reference.

  Both programs project the node features (a leaky rectifier, then a bias-free linear map), send along every edge and
  along one added self-loop per node the source's projected features plus two small-table embeddings of the edge's bond
  type and direction, add the messages up at their destination nodes, and pass each node's total through a two-layer
  perceptron. The kernel does the projection, the message and the perceptron in three grid kernels; it reads the two
  embedding tables by one-hot products; and it pads its edge list to a multiple of its block size with rows that are
  sent to a node number that does not exist and so are dropped.

  The statement holds under the precondition that the float inputs are finite and that the integer inputs are what they
  are used as: source nodes in [-100000, 100000), bond types in [0, 6), bond directions in [0, 3). Outside those ranges
  the reference's own table reads are out of range, and the two programs part.

  The three frames are the generated runs. The algebraic claim: the kernel's run ends with its result array at the last
  boundary's contents; those are the perceptron of its aggregated rows; its aggregated rows are the reference's, entry by
  entry (the padded rows land nowhere, and on every other row the two messages are the same three table entries); and
  the reference's result is the same perceptron of its aggregated rows.
-/
import proofs.«417791_j37349035606505_1_alg».proof.Defs
import proofs.«417791_j37349035606505_1_alg».proof.Proof.Gen.Kernel
import proofs.«417791_j37349035606505_1_alg».proof.Proof.Gen.Kernel.Skeleton
import proofs.«417791_j37349035606505_1_alg».proof.Proof.Gen.Kernel.Launch
import proofs.«417791_j37349035606505_1_alg».proof.Proof.Gen.Kernel.Points
import proofs.«417791_j37349035606505_1_alg».proof.Proof.Gen.Kernel.Frame
import proofs.«417791_j37349035606505_1_alg».proof.Proof.Gen.KernelIdeal
import proofs.«417791_j37349035606505_1_alg».proof.Proof.Gen.KernelIdeal.Skeleton
import proofs.«417791_j37349035606505_1_alg».proof.Proof.Gen.KernelIdeal.Launch
import proofs.«417791_j37349035606505_1_alg».proof.Proof.Gen.KernelIdeal.Points
import proofs.«417791_j37349035606505_1_alg».proof.Proof.Gen.KernelIdeal.Frame
import proofs.«417791_j37349035606505_1_alg».proof.Proof.Gen.ReferenceIdeal
import proofs.«417791_j37349035606505_1_alg».proof.Proof.Gen.Pre_finite_inputs
import proofs.«417791_j37349035606505_1_alg».proof.Proof.Gen.ReferenceIdeal.Run
import proofs.«417791_j37349035606505_1_alg».proof.Proof.Gen.ReferenceIdeal.Read
import proofs.«417791_j37349035606505_1_alg».proof.Proof.KernelRun
import proofs.«417791_j37349035606505_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs run and end with the same result array. -/
theorem algebraic : Cert.algebraic_KernelIdeal_ReferenceIdeal := by
  intro m ρ m' ρ' hpre hagree
  refine ⟨fun c => Cert.KernelIdeal.Gen.W15 m ρ c (Proc.devRef .tc Cert.KernelIdeal.main_v34),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v59_eq, a0, a1, a2, a3, a4, a5, a6, a7, a8, a9, a10]
  exact (Cert.Proof.Bridge.kernel_eq_reference m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
